-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1024 : Shape := ⟨2, ![16384, 1024]⟩
abbrev S8192x1024 : Shape := ⟨2, ![8192, 1024]⟩
abbrev S8192 : Shape := ⟨1, ![8192]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S8192x1024 : S_.BroadcastsInDim S8192x1024 (![] : Fin 0 → Fin S8192x1024.rank)
  reducesTo_S8192x1024_S_d0_1 : S8192x1024.ReducesTo [0, 1] S_
  bcast_S_S8192 : S_.BroadcastsInDim S8192 (![] : Fin 0 → Fin S8192.rank)
  reducesTo_S8192_S_d0 : S8192.ReducesTo [0] S_

variable [Facts]

def fn {F : FTy → Type} [FloatOps F] (main_arg0 : FVec F S16384x1024 .f32) (main_arg1 : FVec F S8192x1024 .f32) (main_arg2 : IVec S8192 32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_c_2 : IVec S_ 32 := constantI S_ 32 0#32
  let main_v9 : IVec S8192 32 := broadcastInDim S8192 ![] bcast_S_S8192 main_c_2
  let main_v10 : IVec S8192 1 := cmpi .sge main_arg2 main_v9
  let main_c_3 : IVec S_ 32 := constantI S_ 32 1024#32
  let main_v11 : IVec S8192 32 := broadcastInDim S8192 ![] bcast_S_S8192 main_c_3
  let main_v12 : IVec S8192 1 := cmpi .slt main_arg2 main_v11
  let main_v13 : IVec S8192 1 := andi main_v10 main_v12
  let main_c_4 : IVec S_ 1 := constantI S_ 1 1#1
  let main_v14 : IVec S_ 1 := (fun x v => Host.reduce IntOp.andi x v reducesTo_S8192_S_d0 h_S_) main_v13 main_c_4
  let main_v15 : IVec S_ 1 := andi main_v8 main_v14
  main_v15
-- ==== Kernel.lean ====
abbrev S16384x1024 : Shape := ⟨2, ![16384, 1024]⟩
abbrev S8192x1024 : Shape := ⟨2, ![8192, 1024]⟩
abbrev S8192 : Shape := ⟨1, ![8192]⟩
abbrev S2048x1024 : Shape := ⟨2, ![2048, 1024]⟩
abbrev S2048 : Shape := ⟨1, ![2048]⟩
abbrev S2048x1 : Shape := ⟨2, ![2048, 1]⟩
abbrev S1x1x8192 : Shape := ⟨3, ![1, 1, 8192]⟩
abbrev S1024x1024 : Shape := ⟨2, ![1024, 1024]⟩
abbrev S1024 : Shape := ⟨1, ![1024]⟩
abbrev S1024x1 : Shape := ⟨2, ![1024, 1]⟩
abbrev S1024x2048 : Shape := ⟨2, ![1024, 2048]⟩
abbrev S1x1x2048 : Shape := ⟨3, ![1, 1, 2048]⟩
abbrev S1x2048 : Shape := ⟨2, ![1, 2048]⟩

abbrev nBuf : Space → Nat
  | .hbm => 6
  | .vmem => 10
  | .smem => 0
  | _ => 0

abbrev bufTy : (tb : Table) → Fin (tcTables nBuf tb) → BufTy
  | .hbm, ⟨0, _⟩ => ⟨S16384x1024, .f32⟩
  | .hbm, ⟨1, _⟩ => ⟨S8192x1024, .f32⟩
  | .hbm, ⟨2, _⟩ => ⟨S8192, .i32⟩
  | .hbm, ⟨3, _⟩ => ⟨S8192x1024, .bf16⟩
  | .hbm, ⟨4, _⟩ => ⟨S1x1x8192, .i32⟩
  | .hbm, ⟨5, _⟩ => ⟨S16384x1024, .f32⟩
  | .local _ .vmem, ⟨0, _⟩ => ⟨S2048x1024, .f32⟩
  | .local _ .vmem, ⟨1, _⟩ => ⟨S2048x1024, .f32⟩
  | .local _ .vmem, ⟨2, _⟩ => ⟨S2048x1024, .bf16⟩
  | .local _ .vmem, ⟨3, _⟩ => ⟨S2048x1024, .bf16⟩
  | .local _ .vmem, ⟨4, _⟩ => ⟨S1x1x8192, .i32⟩
  | .local _ .vmem, ⟨5, _⟩ => ⟨S1024x1024, .f32⟩
  | .local _ .vmem, ⟨6, _⟩ => ⟨S1024x1024, .f32⟩
  | .local _ .vmem, ⟨7, _⟩ => ⟨S8192x1024, .bf16⟩
  | .local _ .vmem, ⟨8, _⟩ => ⟨S1024x1024, .f32⟩
  | .local _ .vmem, ⟨9, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg1_0 : Ref sig .tc := ⟨.vmem, 5, rfl⟩
abbrev cc1_stg1_1 : Ref sig .tc := ⟨.vmem, 6, rfl⟩
abbrev cc1_stg2_0 : Ref sig .tc := ⟨.vmem, 7, rfl⟩
abbrev cc1_stg3_0 : Ref sig .tc := ⟨.vmem, 8, rfl⟩
abbrev cc1_stg3_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem1_0 : DmaSem sig := 5
abbrev cc1_sem1_1 : DmaSem sig := 6
abbrev cc1_sem2_0 : DmaSem sig := 7
abbrev cc1_sem3_0 : DmaSem sig := 8
abbrev cc1_sem3_1 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![16], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .vmem S1x1x8192 .i32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S1024x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S8192x1024 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1024x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  inb_S2048x1024_S2048x1024_0_0 : ∀ a, (![0, 0] : Fin 2 → Nat) a + S2048x1024.size a ≤ S2048x1024.size a
  h_S2048x1024 : 0 < S2048x1024.numel
  reduces_S2048x1024_S2048 : S2048x1024.Reduces [1] S2048
  shapeCasts_S2048_S2048x1 : S2048.ShapeCasts S2048x1
  broadcasts_S2048x1_S2048x1024 : S2048x1.Broadcasts S2048x1024
  bitsLt_bf16_f32 : FTy.bits .bf16 < FTy.bits .f32
  packedbf16_S2048x1024_S2048x1024_0_0 : (Rect.unit (s := S2048x1024) ![0, 0] S2048x1024.size inb_S2048x1024_S2048x1024_0_0).PackedRows (EltTy.packing .bf16)
  shapeCasts_S8192_S1x1x8192 : S8192.ShapeCasts S1x1x8192
  inb_S1024x1024_S1024x1024_0_0 : ∀ a, (![0, 0] : Fin 2 → Nat) a + S1024x1024.size a ≤ S1024x1024.size a
  h_S1024x1024 : 0 < S1024x1024.numel
  reduces_S1024x1024_S1024 : S1024x1024.Reduces [1] S1024
  shapeCasts_S1024_S1024x1 : S1024.ShapeCasts S1024x1
  broadcasts_S1024x1_S1024x1024 : S1024x1.Broadcasts S1024x1024
  inb_S8192x1024_S2048x1024_0_0 : ∀ a, (![0, 0] : Fin 2 → Nat) a + S2048x1024.size a ≤ S8192x1024.size a
  shapeCasts_S2048x1024_S2048x1024 : S2048x1024.ShapeCasts S2048x1024
  inb_S1x1x8192_S1x1x2048_0_0_0 : ∀ a, (![0, 0, 0] : Fin 3 → Nat) a + S1x1x2048.size a ≤ S1x1x8192.size a
  h_S1x1x2048 : 0 < S1x1x2048.numel
  shapeCasts_S1x1x2048_S1x2048 : S1x1x2048.ShapeCasts S1x2048
  iota_S1024x2048_d0_w32 : S1024x2048.Iotas .tc 32 [0]
  broadcasts_S1x2048_S1024x2048 : S1x2048.Broadcasts S1024x2048
  natLt_1_32 : 1 < 32
  inb_S8192x1024_S2048x1024_2048_0 : ∀ a, (![2048, 0] : Fin 2 → Nat) a + S2048x1024.size a ≤ S8192x1024.size a
  inb_S1x1x8192_S1x1x2048_0_0_2048 : ∀ a, (![0, 0, 2048] : Fin 3 → Nat) a + S1x1x2048.size a ≤ S1x1x8192.size a
  shapeCasts_S1024x1024_S1024x1024 : S1024x1024.ShapeCasts S1024x1024
  inb_S8192x1024_S2048x1024_4096_0 : ∀ a, (![4096, 0] : Fin 2 → Nat) a + S2048x1024.size a ≤ S8192x1024.size a
  inb_S1x1x8192_S1x1x2048_0_0_4096 : ∀ a, (![0, 0, 4096] : Fin 3 → Nat) a + S1x1x2048.size a ≤ S1x1x8192.size a
  inb_S8192x1024_S2048x1024_6144_0 : ∀ a, (![6144, 0] : Fin 2 → Nat) a + S2048x1024.size a ≤ S8192x1024.size a
  inb_S1x1x8192_S1x1x2048_0_0_6144 : ∀ a, (![0, 0, 6144] : Fin 3 → Nat) a + S1x1x2048.size a ≤ S1x1x8192.size a
  dot_S1024x1024_S2048x1024_S1024x2048_1_1_0_0_n_n_wf : DotDims.WF S1024x1024 S2048x1024 S1024x2048 [1] [1] [0] [0] [] []
  dot_S1024x2048_S1024x2048_S1024x1024_1_1_0_0_n_n_wf : DotDims.WF S1024x2048 S1024x2048 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S8192x1024.size a
  hwx0_0 : ∀ i : grid0.Coords, EltTy.bits .f32 = 32 ∨ (Rect.block (s := S8192x1024) S2048x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x1024.size a ≤ S8192x1024.size a
  hwx0_1 : ∀ i : grid0.Coords, EltTy.bits .bf16 = 32 ∨ (Rect.block (s := S8192x1024) S2048x1024.size (cc0_transform_1 i) (hinb0_1 i)).WholeWords (EltTy.packing .bf16)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S1x1x8192.size a ≤ S1x1x8192.size a
  hwx1_0 : ∀ i : grid1.Coords, EltTy.bits .i32 = 32 ∨ (Rect.block (s := S1x1x8192) S1x1x8192.size (cc1_transform_0 i) (hinb1_0 i)).WholeWords (EltTy.packing .i32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S16384x1024.size a
  hwx1_1 : ∀ i : grid1.Coords, EltTy.bits .f32 = 32 ∨ (Rect.block (s := S16384x1024) S1024x1024.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S8192x1024.size a ≤ S8192x1024.size a
  hwx1_2 : ∀ i : grid1.Coords, EltTy.bits .bf16 = 32 ∨ (Rect.block (s := S8192x1024) S8192x1024.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x1024.size a ≤ S16384x1024.size a
  hwx1_3 : ∀ i : grid1.Coords, EltTy.bits .f32 = 32 ∨ (Rect.block (s := S16384x1024) S1024x1024.size (cc1_transform_3 i) (hinb1_3 i)).WholeWords (EltTy.packing .f32)

variable [Facts₀]

def dot_S1024x1024_S2048x1024_S1024x2048_1_1_0_0_n_n : DotDims S1024x1024 S2048x1024 S1024x2048 where
  lhsContracting := [1]
  rhsContracting := [1]
  lhsNonContracting := [0]
  rhsNonContracting := [0]
  lhsBatch := []
  rhsBatch := []
  wf := dot_S1024x1024_S2048x1024_S1024x2048_1_1_0_0_n_n_wf
def dot_S1024x2048_S1024x2048_S1024x1024_1_1_0_0_n_n : DotDims S1024x2048 S1024x2048 S1024x1024 where
  lhsContracting := [1]
  rhsContracting := [1]
  lhsNonContracting := [0]
  rhsNonContracting := [0]
  lhsBatch := []
  rhsBatch := []
  wf := dot_S1024x2048_S1024x2048_S1024x1024_1_1_0_0_n_n_wf

abbrev win0_0 : Pipeline.Window sig grid0 :=
  Pipeline.Window.ofSpec (Memref.whole main_arg1) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S2048x1024.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v1) S1x1x8192.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S1024x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v0) S8192x1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v2) S1024x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S16384x1024 : Shape := ⟨2, ![16384, 1024]⟩
abbrev S8192x1024 : Shape := ⟨2, ![8192, 1024]⟩
abbrev S8192 : Shape := ⟨1, ![8192]⟩
abbrev S_ : Shape := ⟨0, ![]⟩
abbrev S16384 : Shape := ⟨1, ![16384]⟩
abbrev S16384x1 : Shape := ⟨2, ![16384, 1]⟩
abbrev S8192x1 : Shape := ⟨2, ![8192, 1]⟩
abbrev S1024x8192 : Shape := ⟨2, ![1024, 8192]⟩
abbrev S16384x8192 : Shape := ⟨2, ![16384, 8192]⟩
abbrev S8192x16384 : Shape := ⟨2, ![8192, 16384]⟩
abbrev S1024x16384 : Shape := ⟨2, ![1024, 16384]⟩

abbrev nBuf : Space → Nat
  | .hbm => 52
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S8192x1024, .f32⟩
  | .hbm, ⟨2, _⟩ => ⟨S8192, .i32⟩
  | .hbm, ⟨3, _⟩ => ⟨S16384x1024, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S16384x1024, .f32⟩
  | .hbm, ⟨12, _⟩ => ⟨S16384x1024, .f32⟩
  | .hbm, ⟨13, _⟩ => ⟨S8192x1024, .f32⟩
  | .hbm, ⟨14, _⟩ => ⟨S_, .f32⟩
  | .hbm, ⟨15, _⟩ => ⟨S8192, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1024, .f32⟩
  | .hbm, ⟨22, _⟩ => ⟨S8192x1024, .f32⟩
  | .hbm, ⟨23, _⟩ => ⟨S1024x8192, .f32⟩
  | .hbm, ⟨24, _⟩ => ⟨S16384x8192, .f32⟩
  | .hbm, ⟨25, _⟩ => ⟨S_, .f32⟩
  | .hbm, ⟨26, _⟩ => ⟨S16384x8192, .f32⟩
  | .hbm, ⟨27, _⟩ => ⟨S16384x8192, .f32⟩
  | .hbm, ⟨28, _⟩ => ⟨S16384x8192, .f32⟩
  | .hbm, ⟨29, _⟩ => ⟨S_, .f32⟩
  | .hbm, ⟨30, _⟩ => ⟨S16384x8192, .f32⟩
  | .hbm, ⟨31, _⟩ => ⟨S16384x8192, .f32⟩
  | .hbm, ⟨32, _⟩ => ⟨S_, .f32⟩
  | .hbm, ⟨33, _⟩ => ⟨S16384, .f32⟩
  | .hbm, ⟨34, _⟩ => ⟨S_, .f32⟩
  | .hbm, ⟨35, _⟩ => ⟨S16384, .f32⟩
  | .hbm, ⟨36, _⟩ => ⟨S16384, .f32⟩
  | .hbm, ⟨37, _⟩ => ⟨S16384x1, .f32⟩
  | .hbm, ⟨38, _⟩ => ⟨S16384x8192, .f32⟩
  | .hbm, ⟨39, _⟩ => ⟨S16384x8192, .f32⟩
  | .hbm, ⟨40, _⟩ => ⟨S16384x8192, .f32⟩
  | .hbm, ⟨41, _⟩ => ⟨S_, .f32⟩
  | .hbm, ⟨42, _⟩ => ⟨S16384, .f32⟩
  | .hbm, ⟨43, _⟩ => ⟨S16384x1, .f32⟩
  | .hbm, ⟨44, _⟩ => ⟨S16384x8192, .f32⟩
  | .hbm, ⟨45, _⟩ => ⟨S16384x8192, .f32⟩
  | .hbm, ⟨46, _⟩ => ⟨S8192x16384, .f32⟩
  | .hbm, ⟨47, _⟩ => ⟨S_, .f32⟩
  | .hbm, ⟨48, _⟩ => ⟨S1024x16384, .f32⟩
  | .hbm, ⟨49, _⟩ => ⟨S8192x1, .i32⟩
  | .hbm, ⟨50, _⟩ => ⟨S1024x16384, .f32⟩
  | .hbm, ⟨51, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_call0_v2 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_call1_v0 : Ref sig .tc := ⟨.hbm, 13, rfl⟩
abbrev main_call1_cst : Ref sig .tc := ⟨.hbm, 14, rfl⟩
abbrev main_call1_v1 : Ref sig .tc := ⟨.hbm, 15, rfl⟩
abbrev main_call1_v2 : Ref sig .tc := ⟨.hbm, 16, rfl⟩
abbrev main_v5 : Ref sig .tc := ⟨.hbm, 17, rfl⟩
abbrev main_cst_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst_1 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_2 : Ref sig .tc := ⟨.hbm, 29, rfl⟩
abbrev main_v15 : Ref sig .tc := ⟨.hbm, 30, rfl⟩
abbrev main_v16 : Ref sig .tc := ⟨.hbm, 31, rfl⟩
abbrev main_cst_3 : Ref sig .tc := ⟨.hbm, 32, rfl⟩
abbrev main_v17 : Ref sig .tc := ⟨.hbm, 33, rfl⟩
abbrev main_cst_4 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_cst_6 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩

abbrev nD : Nat := 1
abbrev τ : Topo := Topo.v7x

variable {F : FTy → Type} [FloatOps F]

class Facts₀ : Prop where
  reducesTo_S16384x1024_S16384_d1 : S16384x1024.ReducesTo [1] S16384
  h_S_ : 0 < S_.numel
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S16384x1_S16384x1024_0_1 : S16384x1.BroadcastsInDim S16384x1024 (![0, 1] : Fin 2 → Fin S16384x1024.rank)
  reducesTo_S8192x1024_S8192_d1 : S8192x1024.ReducesTo [1] S8192
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x1024_0_1 : S8192x1.BroadcastsInDim S8192x1024 (![0, 1] : Fin 2 → Fin S8192x1024.rank)
  transposes_S8192x1024_S1024x8192_1_0 : S8192x1024.Transposes [1, 0] S1024x8192
  bcast_S_S16384x8192 : S_.BroadcastsInDim S16384x8192 (![] : Fin 0 → Fin S16384x8192.rank)
  reducesTo_S16384x8192_S16384_d1 : S16384x8192.ReducesTo [1] S16384
  bcast_S_S16384 : S_.BroadcastsInDim S16384 (![] : Fin 0 → Fin S16384.rank)
  bcast_S16384x1_S16384x8192_0_1 : S16384x1.BroadcastsInDim S16384x8192 (![0, 1] : Fin 2 → Fin S16384x8192.rank)
  transposes_S16384x8192_S8192x16384_1_0 : S16384x8192.Transposes [1, 0] S8192x16384
  bcast_S_S1024x16384 : S_.BroadcastsInDim S1024x16384 (![] : Fin 0 → Fin S1024x16384.rank)
  transposes_S1024x16384_S16384x1024_1_0 : S1024x16384.Transposes [1, 0] S16384x1024
  dot_S16384x1024_S1024x8192_S16384x8192_1_0_0_1_n_n_wf : DotDims.WF S16384x1024 S1024x8192 S16384x8192 [1] [0] [0] [1] [] []
  scatter_S1024x16384_S8192x1_S8192x16384_1_0_0_1_wf : ScatterDims.WF S1024x16384 S8192x1 S8192x16384 [1] [0] [0] 1

variable [Facts₀]

def dot_S16384x1024_S1024x8192_S16384x8192_1_0_0_1_n_n : DotDims S16384x1024 S1024x8192 S16384x8192 where
  lhsContracting := [1]
  rhsContracting := [0]
  lhsNonContracting := [0]
  rhsNonContracting := [1]
  lhsBatch := []
  rhsBatch := []
  wf := dot_S16384x1024_S1024x8192_S16384x8192_1_0_0_1_n_n_wf
def scatter_S1024x16384_S8192x1_S8192x16384_1_0_0_1 : ScatterDims S1024x16384 S8192x1 S8192x16384 where
  updateWindowDims := [1]
  insertedWindowDims := [0]
  scatterDimsToOperandDims := [0]
  indexVectorDim := 1
  wf := scatter_S1024x16384_S8192x1_S8192x16384_1_0_0_1_wf

class Facts : Prop extends Facts₀ where

variable [Facts]
-- ==== Proof.Spec.lean ====
/-
  Cosine soft k-means scores on the extended reals, row by row, in the two arrangements the two programs compute.

  A sample row `v` and every centroid row are scaled by `1 / (‖·‖₂ + e)`; the similarity of the sample to centroid `k` is the
  inner product `s k` of the scaled rows. One program takes `exp (s k)`, adds these masses class by class (a centroid `k`
  counts for class `c` when `hit k c`) and divides each class's mass by the total over the classes (`scoreK`). The other
  forms the logits `-(o - s k) / o`, subtracts their maximum, exponentiates, normalises over ALL centroids, and only then
  adds the probabilities class by class (`scoreR`). The constants stay symbolic here: `e` the norm's guard, `o` the unit,
  `b` the value the maximum starts from.
-/
import Idealize.ShloMosaic.PureOps.Ideal

noncomputable section

namespace KMeans

open Idealize.ShloMosaic

variable {D K C : Type} [Fintype D] [Fintype K] [Fintype C]

/-- The Euclidean length of a row plus the guard `e`. -/
def nrm (e : EReal) (v : D → EReal) : EReal := Ideal.sqrt (∑ d, v d * v d) + e

/-- A row divided, entry by entry, by its guarded length. -/
def unit (e : EReal) (v : D → EReal) (d : D) : EReal := Ideal.div (v d) (nrm e v)

/-- Similarity of the row `v` to the (already scaled) centroid `k`, the row scaled by MULTIPLYING with the reciprocal
    `o / (‖v‖ + e)`. -/
def simK (e o : EReal) (v : D → EReal) (cn : K → D → EReal) (k : K) : EReal :=
  ∑ d, (v d * Ideal.div o (nrm e v)) * cn k d

/-- The exponential mass of class `c`: the sum over the centroids of `exp (similarity)` times the class indicator. -/
def massK (e o : EReal) (v : D → EReal) (cn : K → D → EReal) (hit : K → C → Prop) [∀ k c, Decidable (hit k c)] (c : C) :
    EReal :=
  ∑ k, Ideal.exp (simK e o v cn k) * (if hit k c then (1 : EReal) else 0)

/-- The class score as the first program forms it: the class's mass over the sum of all classes' masses. -/
def scoreK (e o : EReal) (v : D → EReal) (cn : K → D → EReal) (hit : K → C → Prop) [∀ k c, Decidable (hit k c)] (c : C) :
    EReal :=
  Ideal.div (massK e o v cn hit c) (∑ c', massK e o v cn hit c')

/-- Similarity of the row `v` to the (already scaled) centroid `k`, the row scaled by DIVIDING by `‖v‖ + e`. -/
def simR (e : EReal) (v : D → EReal) (cn : K → D → EReal) (k : K) : EReal := ∑ d, unit e v d * cn k d

/-- The logit of a similarity `s`: minus the cosine distance `o - s`, over the temperature `o`. -/
def logitR (o s : EReal) : EReal := Ideal.div (-(o - s)) o

/-- The shift a softmax subtracts: the maximum of the logits, started from `b` (and once more compared with `b`). -/
def shiftR (b : EReal) (l : K → EReal) : EReal := max b (Finset.univ.fold max b l)

/-- The softmax probability of centroid `k`: the shifted exponential over the sum of all the shifted exponentials. -/
def probR (e o b : EReal) (v : D → EReal) (cn : K → D → EReal) (k : K) : EReal :=
  Ideal.div (Ideal.exp (logitR o (simR e v cn k) - shiftR b fun k' => logitR o (simR e v cn k')))
    (∑ k'', Ideal.exp (logitR o (simR e v cn k'') - shiftR b fun k' => logitR o (simR e v cn k')))

/-- The class score as the second program forms it: the probabilities of the class's centroids, added. -/
def scoreR (e o b : EReal) (v : D → EReal) (cn : K → D → EReal) (hit : K → C → Prop) [∀ k c, Decidable (hit k c)] (c : C) :
    EReal :=
  ∑ k ∈ Finset.univ.filter (fun k => hit k c), probR e o b v cn k

/-- The three float constants both programs carry: the norm's guard, the unit, minus infinity. -/
abbrev E : EReal := Ideal.ofBits .f32 0x2B8CBCCC#32
abbrev O : EReal := Ideal.ofBits .f32 0x3F800000#32
abbrev B : EReal := Ideal.ofBits .f32 0xFF800000#32

end KMeans

end
-- ==== Proof.Region0Value.lean ====
import proofs.«165227_g20968030339366_cont_sun_c4_238_16_alg».proof.Proof.Gen.KernelIdeal.Frame
import proofs.«165227_g20968030339366_cont_sun_c4_238_16_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Value0

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-! ## The two column layouts a row reduction leaves behind, read at an index -/

/-- An `[a]` array viewed as the one-column matrix `[a, 1]` reads, at `(i, u)`, the operand at `i`: both indices have
    row-major position `i`. -/
theorem shapeCast_col_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A one-column matrix `[a, 1]` broadcast to `[a, b]` reads, at `(p, c)`, the column's entry of row `p`. -/
theorem broadcastTo_col_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The body's value at an index of its block -/

/-- What the body stores at row `r`, column `d` of its block `x0`: the entry `x0 (r, d)` divided by the square root of
    the row's sum of squares plus the guard — the row `r` of `x0` scaled to (guarded) unit length, read at `d`. The sum
    over the lane axis at row `r` runs over the indices `(r, k)`; the narrowing to bf16 is the identity on the
    extended reals. -/
theorem pay_apply (x0 : Vec Ideal S2048x1024 .f32) (r : Fin 2048) (d : Fin 1024) :
    k0_pay1 (F := Ideal) x0 (ix2 r d) = KMeans.unit KMeans.E (fun d' : Fin 1024 => x0 (ix2 r d')) d := by
  unfold k0_pay1
  dsimp only
  unfold KMeans.unit KMeans.nrm
  show Ideal.div (x0 (ix2 r d)) (broadcastTo S2048x1024 _ broadcasts_S2048x1_S2048x1024 (ix2 r d)) = _
  refine congrArg (Ideal.div (x0 (ix2 r d))) ?_
  refine (broadcastTo_col_apply _ _ r d).trans ?_
  refine (addf_apply _ _ _).trans ?_
  refine congrArg₂ (· + ·) ?_ rfl
  show Ideal.sqrt (shapeCast S2048x1 _ _ (ix2 r 0)) = _
  refine congrArg Ideal.sqrt ?_
  refine (shapeCast_col_apply _ _ r 0).trans ?_
  refine (Ideal.multiReduction_add_single (mulf x0 x0) _ reduces_S2048x1024_S2048 _ _ (ix1 r)).trans ?_
  refine Finset.sum_congr rfl fun k _ => ?_
  have hk : reduces_S2048x1024_S2048.lift (ix1 r) k = ix2 r k := by
    funext a
    match a with
    | ⟨0, _⟩ => rfl
    | ⟨1, _⟩ => rfl
  rw [hk]
  rfl

/-! ## From the blocks to the array -/

theorem zero_offsets : (![0, 0] : Fin 2 → Nat) = fun _ => 0 := funext fun a => by fin_cases a <;> rfl

/-- The whole output array as one function of the argument array: row `i 0` scaled by its guarded length, read at
    column `i 1`. -/
def unitRows (c : Dev nD) : S8192x1024.Idx → EReal := fun i =>
  KMeans.unit KMeans.E (fun d' : Fin 1024 => (V c main_arg1 : S8192x1024.Idx → EReal) (ix2 (n0 := 8192) (i 0) d')) (i 1)

theorem unitRows_apply (c : Dev nD) (k : Fin 8192) (d : Fin 1024) :
    unitRows V c (ix2 k d)
      = KMeans.unit KMeans.E (fun d' : Fin 1024 => (V c main_arg1 : S8192x1024.Idx → EReal) (ix2 k d')) d := rfl

/-- At grid point `t` both windows sit at block row `t`, block column `0`. -/
theorem block_index : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- Row `r` of the input block at point `t` is row `2048 * t + r` of the argument array: a block's coordinate on an
    axis is the block index times the block's size plus the coordinate inside the block. -/
theorem iblk_apply (c : Dev nD) (t : Fin cfg0.N) (r : Fin 2048) (d : Fin 1024) (k : Fin 8192)
    (hk : k.val = 2048 * t.val + r.val) :
    (iblk0 V c 0 t : Vec Ideal S2048x1024 .f32) (ix2 r d) = (V c main_arg1 : S8192x1024.Idx → EReal) (ix2 k d) := by
  obtain ⟨e0, e1, -, -⟩ := block_index t
  unfold iblk0
  rw [View.read_apply]
  show V c main_arg1 _ = V c main_arg1 _
  congr 1
  funext a
  apply Fin.ext
  match a with
  | ⟨0, _⟩ => show win0_0.index t 0 * 2048 + 1 * r.val = k.val; rw [e0, hk]; omega
  | ⟨1, _⟩ => show win0_0.index t 1 * 1024 + 1 * d.val = d.val; rw [e1]; omega

/-- What point `t` writes back is block `t` of `unitRows`: the body stores, over its whole buffer, the rows of its
    input block scaled to unit length, and row `r` of either block is row `2048 * t + r` of its array. -/
theorem flushed_eq (c : Dev nD) (t : Fin cfg0.N) :
    (dat0 (F := Ideal) V c).flushed 1 t = ((cfg0.win 1).blk t).view.read (Elt Ideal) (unitRows V c) := by
  show (cfg0.win 1).cut (grid0.coords t) ((dat0 V c).after 1 t) = _
  rw [after0_1]
  unfold out0_1
  rw [View.canon_unit_zero zero_offsets]
  simp only [View.ld_unit_zero (S := S2048x1024) zero_offsets]
  obtain ⟨-, -, e2, e3⟩ := block_index t
  have ht : t.val < 4 := by have := t.isLt; have hN : cfg0.N = 4 := N_0; omega
  funext j
  obtain ⟨r, d, rfl⟩ : ∃ (r : Fin 2048) (d : Fin 1024), j = ix2 r d := ⟨j 0, j 1, eq_ix2 j⟩
  have hemb : ((cfg0.win 1).blk t).view.emb (ix2 r d) = ix2 (⟨2048 * t.val + r.val, by omega⟩ : Fin 8192) d := by
    funext a
    apply Fin.ext
    match a with
    | ⟨0, _⟩ => show win0_1.index t 0 * 2048 + 1 * r.val = 2048 * t.val + r.val; rw [e2]; omega
    | ⟨1, _⟩ => show win0_1.index t 1 * 1024 + 1 * d.val = d.val; rw [e3]; omega
  show k0_pay1 (F := Ideal) (iblk0 V c 0 t) (ix2 r d) = unitRows V c (((cfg0.win 1).blk t).view.emb (ix2 r d))
  rw [hemb, unitRows_apply]
  refine (pay_apply (iblk0 V c 0 t) r d).trans ?_
  refine congrArg (fun v : Fin 1024 → EReal => KMeans.unit KMeans.E v d) ?_
  funext d'
  exact iblk_apply V c t r d' _ rfl

/-- An index of the array is in point `t`'s block iff each coordinate is in the block's range on its axis. -/
theorem mem_blk (t : Fin cfg0.N) (i : S8192x1024.Idx) :
    i ∈ ((cfg0.win 1).blk t).view.set ↔ ∀ a : Fin 2, win0_1.index t a * S2048x1024.size a ≤ (i a).val
      ∧ (i a).val < win0_1.index t a * S2048x1024.size a + S2048x1024.size a := by
  show i ∈ ((View.whole main_v0).slice (win0_1.rect t)).set ↔ _
  rw [View.set_slice_whole, Rect.mem_set_unit]
  exact Iff.rfl

/-- Every index of the array is in some point's block: row `k` lies in the block of point `k / 2048`, and every block
    spans all the columns. -/
theorem covered (i : S8192x1024.Idx) :
    ∃ t : Fin cfg0.N, (cfg0.win 1).flush t = true ∧ i ∈ ((cfg0.win 1).blk t).view.set := by
  have hi0 : (i 0).val < 8192 := idx2_lt0 i
  have hi1 : (i 1).val < 1024 := idx2_lt1 i
  have hN : cfg0.N = 4 := N_0
  refine ⟨⟨(i 0).val / 2048, by omega⟩, flush0_1 _, ?_⟩
  rw [mem_blk]
  obtain ⟨-, -, e2, e3⟩ := block_index ⟨(i 0).val / 2048, by omega⟩
  intro a
  match a with
  | ⟨0, _⟩ =>
    show win0_1.index _ (0 : Fin 2) * 2048 ≤ (i 0).val ∧ (i 0).val < win0_1.index _ (0 : Fin 2) * 2048 + 2048
    rw [e2]
    show (i 0).val / 2048 * 2048 ≤ (i 0).val ∧ (i 0).val < (i 0).val / 2048 * 2048 + 2048
    omega
  | ⟨1, _⟩ =>
    show win0_1.index _ (1 : Fin 2) * 1024 ≤ (i 1).val ∧ (i 1).val < win0_1.index _ (1 : Fin 2) * 1024 + 1024
    rw [e3]
    omega

/-- The output array after the region is `unitRows`: every point writes back its block of it, and the blocks cover
    the array. -/
theorem arr0_eq (c : Dev nD) : (dat0 (F := Ideal) V c).arrAt 1 cfg0.N = unitRows V c :=
  (dat0 V c).arrAt_eq_of_cover 1 (unitRows V c) (fun t _ => flushed_eq V c t) covered

theorem arr0_apply (c : Dev nD) (k : Fin 8192) (d : Fin 1024) :
    ((dat0 (F := Ideal) V c).arrAt 1 cfg0.N : S8192x1024.Idx → EReal) (ix2 k d)
      = KMeans.unit KMeans.E (fun d' : Fin 1024 => (V c main_arg1 : S8192x1024.Idx → EReal) (ix2 k d')) d := by
  rw [arr0_eq]
  exact unitRows_apply V c k d

end Cert.KernelIdeal.Value0

end
-- ==== Proof.Region1Def.lean ====
/-
  What the second kernel's body leaves in its output block, written as ONE term of the three input blocks: the labels
  block `x0`, the sample rows `x1` and the scaled centroids `x2`. The body walks the centroids in four chunks of 2048 rows:
  the first chunk's class masses are stored, each later chunk's are added to what the block holds, and at the end the block
  is divided row by row by its row sums.
-/
import proofs.«165227_g20968030339366_cont_sun_c4_238_16_alg».proof.Proof.Gen.KernelIdeal.Frame

noncomputable section

namespace Cert.KernelIdeal.Body1

open Cert.KernelIdeal Cert.KernelIdeal.Gen Idealize.ShloMosaic

variable {F : FTy → Type} [FloatOps F]

/-- Rows `[o, o + 2048)` of the centroid block. -/
abbrev rc0 : Rect S8192x1024 := Rect.unit (s := S8192x1024) ![0, 0] S2048x1024.size Facts₀.inb_S8192x1024_S2048x1024_0_0
abbrev rc1 : Rect S8192x1024 := Rect.unit (s := S8192x1024) ![2048, 0] S2048x1024.size Facts₀.inb_S8192x1024_S2048x1024_2048_0
abbrev rc2 : Rect S8192x1024 := Rect.unit (s := S8192x1024) ![4096, 0] S2048x1024.size Facts₀.inb_S8192x1024_S2048x1024_4096_0
abbrev rc3 : Rect S8192x1024 := Rect.unit (s := S8192x1024) ![6144, 0] S2048x1024.size Facts₀.inb_S8192x1024_S2048x1024_6144_0
/-- Labels `[o, o + 2048)` of the labels block. -/
abbrev rl0 : Rect S1x1x8192 := Rect.unit (s := S1x1x8192) ![0, 0, 0] S1x1x2048.size Facts₀.inb_S1x1x8192_S1x1x2048_0_0_0
abbrev rl1 : Rect S1x1x8192 := Rect.unit (s := S1x1x8192) ![0, 0, 2048] S1x1x2048.size Facts₀.inb_S1x1x8192_S1x1x2048_0_0_2048
abbrev rl2 : Rect S1x1x8192 := Rect.unit (s := S1x1x8192) ![0, 0, 4096] S1x1x2048.size Facts₀.inb_S1x1x8192_S1x1x2048_0_0_4096
abbrev rl3 : Rect S1x1x8192 := Rect.unit (s := S1x1x8192) ![0, 0, 6144] S1x1x2048.size Facts₀.inb_S1x1x8192_S1x1x2048_0_0_6144

/-- The class masses after the four chunks, each chunk's added to the block's earlier contents. -/
def masses (x0 : Vec F S1x1x8192 .i32) (x1 : Vec F S1024x1024 .f32) (x2 : Vec F S8192x1024 .bf16) : Vec F S1024x1024 .f32 :=
  k1_pay1 (k1_pay9 (k1_pay3 x1) (View.ld x2 rc3)) (k1_pay10 (View.ld x0 rl3))
    (k1_pay8 (k1_pay3 x1) (View.ld x2 rc2) (View.ld x0 rl2)
      (k1_pay7 (k1_pay5 x1 (View.ld x2 rc1)) (k1_pay6 (View.ld x0 rl1))
        (k1_pay4 x1 (View.ld x2 rc0) (View.ld x0 rl0))))

/-- The output block: the class masses over their row sums. -/
def body (x0 : Vec F S1x1x8192 .i32) (x1 : Vec F S1024x1024 .f32) (x2 : Vec F S8192x1024 .bf16) : Vec F S1024x1024 .f32 :=
  k1_pay2 (masses x0 x1 x2)

end Cert.KernelIdeal.Body1

end
-- ==== Proof.Region1Body.lean ====
import proofs.«165227_g20968030339366_cont_sun_c4_238_16_alg».proof.Proof.Region1Def
import Idealize.ShloMosaic.Lib.Pipeline.Value
import Idealize.ShloMosaic.Lib.Tactic

noncomputable section

namespace Cert.KernelIdeal.Body1

open Cert.KernelIdeal Cert.KernelIdeal.Gen Idealize.ShloMosaic Idealize.ShloMosaic.TcCoe Idealize.SL.Sem
open Idealize.ShloMosaic.Tactic

/-- A load through the whole-shape rectangle at zero offsets of what a list of stores left, whose LAST store went
    through that same rectangle, reads that store's payload, whatever the earlier stores were: the last store covers
    every index, so the contents are its payload, and the load through the whole rectangle reads the contents. -/
private theorem readCov_cons_unit_zero {Val : EltTy → Type} {S : Shape} {e : EltTy} [∀ e, Nonempty (Val e)]
    {sig : RefSig} {κ : Kind} {sp : Space}
    (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons_self, View.mem_set_unit_zero rfl inb y⟩),
    View.canon_cons_unit_zero rfl, View.ld_unit_zero rfl]

variable {F : FTy → Type} [FloatOps F]

/-- The two zero offsets of a rank-2 block, as the constant zero function. -/
private theorem hz2 : (![0, 0] : Fin 2 → Nat) = fun _ => 0 := funext fun a => by fin_cases a <;> rfl

/-- What the run leaves in the output block is `body`: the five stores all go through the whole-block rectangle, so the
    block holds the last store's payload (the row-normalised masses); that payload's argument is a load of the whole block
    after the fourth store, which reads the fourth store's payload, whose argument in turn reads the third's, and so on
    down to the first chunk's masses; the loads of the input blocks read the blocks' contents through their rectangles. -/
theorem out1_eq_body (c : Dev nD) (i : grid1.Coords) (a1 : Memref sig .tc .vmem S1x1x8192 .i32) (h1 : a1.IsWhole)
    (a2 : Memref sig .tc .vmem S1024x1024 .f32) (h2 : a2.IsWhole) (a3 : Memref sig .tc .vmem S8192x1024 .bf16) (h3 : a3.IsWhole)
    (a4 : Memref sig .tc .vmem S1024x1024 .f32) (h4 : a4.IsWhole)
    (x0 : Vec F S1x1x8192 .i32) (x1 : Vec F S1024x1024 .f32) (x2 : Vec F S8192x1024 .bf16) :
    out1_A_3 c i a1 h1 a2 h2 a3 h3 a4 h4 x0 x1 x2 = body x0 x1 x2 := by
  unfold out1_A_3
  rw [View.read_writes_eq_canon _ _ _ (cover1_A_3 c i a1 h1 a2 h2 a3 h3 a4 h4 x0 x1 x2)]
  unfold kernelRun1_A
  dsimp only
  sl_unfold_words
  -- the block holds the fifth (last) store's payload
  rw [View.canon_cons_unit_zero (S := S1024x1024) hz2]
  -- each whole-block load after a store reads that store's payload: the fourth, third, second and first in turn
  rw [readCov_cons_unit_zero (S := S1024x1024) _ hz2]
  rw [readCov_cons_unit_zero (S := S1024x1024) _ hz2]
  rw [readCov_cons_unit_zero (S := S1024x1024) _ hz2]
  rw [readCov_cons_unit_zero (S := S1024x1024) _ hz2]
  -- the loads of the input blocks read their contents; the whole-block load of the sample rows reads all of them
  simp only [View.readAt_eq_ld, h1.read_unread, h2.read_unread, h3.read_unread, View.ld_unit_zero (S := S1024x1024) hz2]
  rfl

end Cert.KernelIdeal.Body1

end
-- ==== Proof.Region1Chunk.lean ====
import proofs.«165227_g20968030339366_cont_sun_c4_238_16_alg».proof.Proof.Region1Def
import proofs.«165227_g20968030339366_cont_sun_c4_238_16_alg».proof.Proof.Spec
import Idealize.ShloMosaic.Lib.ValueIdx
import Idealize.ShloMosaic.Lib.ValueLayout
import Idealize.ShloMosaic.Lib.Pipeline.Value
import Idealize.ShloMosaic.PureOps.Ideal.Laws
import Mathlib.Data.EReal.Basic
import Mathlib.Algebra.BigOperators.Group.Finset.Basic

noncomputable section

namespace Cert.KernelIdeal.Body1

open Cert.KernelIdeal Cert.KernelIdeal.Gen Idealize.ShloMosaic Idealize.ShloMosaic.ValueIdx

/-! ## Two column layouts read at an index -/

/-- A vector `[a]` viewed as a column `[a, 1]` reads, at `(i, u)`, the vector at `i`: both sit at row-major position `i`. -/
theorem chunk_colCast_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` spread over `b` lanes reads, at `(p, c)`, the column at `(p, 0)`. -/
theorem chunk_colBroadcast_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The scaled sample row -/

/-- The lane sum of a `[1024, 1024]` block at row `r` is the sum over the row's 1024 entries. -/
theorem chunk_rowSum_apply (src : FVec Ideal S1024x1024 .f32) (h : S1024x1024.Reduces [1] S1024)
    (hφ : FKind.Formats .f32) (hacc : (0x00000000#32 : BitVec 32) = 0x00000000#32) (r : Fin 1024) :
    multiReduction (F := Ideal) .add [1] S1024 src 0x00000000#32 h hφ hacc (ix1 r) = ∑ d : Fin 1024, src (ix2 r d) := by
  refine (Ideal.multiReduction_add_single src 0x00000000#32 h hφ hacc (ix1 r)).trans ?_
  refine Finset.sum_congr rfl fun d _ => congrArg src ?_
  funext a; refine Fin.ext ?_
  match a with
  | ⟨0, _⟩ => rfl
  | ⟨1, _⟩ => rfl

/-- The scaled sample row at `(r, d)`: the entry times the reciprocal `O / (‖row r‖ + E)`. -/
theorem chunk_pay3_apply (x1 : Vec Ideal S1024x1024 .f32) (r d : Fin 1024) :
    k1_pay3 (F := Ideal) x1 (ix2 r d)
      = x1 (ix2 r d) * Ideal.div KMeans.O (KMeans.nrm KMeans.E fun d' : Fin 1024 => x1 (ix2 r d')) := by
  unfold k1_pay3
  simp only [truncf_apply, mulf_apply]
  refine congrArg (x1 (ix2 r d) * ·) ?_
  refine (chunk_colBroadcast_apply _ broadcasts_S1024x1_S1024x1024 r d).trans ?_
  simp only [divf_apply, addf_apply, broadcast_apply]
  refine congrArg (Ideal.div _ <| · + _) ?_
  show Ideal.sqrt _ = Ideal.sqrt _
  refine congrArg Ideal.sqrt ?_
  refine (chunk_colCast_apply _ shapeCasts_S1024_S1024x1 r (0 : Fin 1)).trans ?_
  exact chunk_rowSum_apply _ _ _ _ r

/-! ## The two products read at an index

Both products contract the SECOND axis of each operand: the result at `(p, q)` is the sum over `k` of the left operand at
`(p, k)` times the right operand at `(q, k)`. For each product the four statements below say which coordinate of the
result index or of the contraction index each operand axis reads. -/

theorem chunk_lhs_sim_0 (i : S1024x2048.Idx) (q : dot_S1024x1024_S2048x1024_S1024x2048_1_1_0_0_n_n.contr.Idx) :
    (dot_S1024x1024_S2048x1024_S1024x2048_1_1_0_0_n_n.lhsIdx i q 0).val = (i 0).val := by
  unfold DotDims.lhsIdx
  rw [dif_neg (show ¬(0 : Fin S1024x1024.rank) ∈ dot_S1024x1024_S2048x1024_S1024x2048_1_1_0_0_n_n.lhsBatch by decide), dif_pos (show (0 : Fin S1024x1024.rank) ∈ dot_S1024x1024_S2048x1024_S1024x2048_1_1_0_0_n_n.lhsNonContracting by decide)]
  rfl
theorem chunk_lhs_sim_1 (i : S1024x2048.Idx) (q : dot_S1024x1024_S2048x1024_S1024x2048_1_1_0_0_n_n.contr.Idx) :
    (dot_S1024x1024_S2048x1024_S1024x2048_1_1_0_0_n_n.lhsIdx i q 1).val = (q ⟨0, by decide⟩).val :=
  dot_S1024x1024_S2048x1024_S1024x2048_1_1_0_0_n_n.lhsIdx_val_of_single rfl i q
theorem chunk_rhs_sim_0 (i : S1024x2048.Idx) (q : dot_S1024x1024_S2048x1024_S1024x2048_1_1_0_0_n_n.contr.Idx) :
    (dot_S1024x1024_S2048x1024_S1024x2048_1_1_0_0_n_n.rhsIdx i q 0).val = (i 1).val := by
  unfold DotDims.rhsIdx
  rw [dif_neg (show ¬(0 : Fin S2048x1024.rank) ∈ dot_S1024x1024_S2048x1024_S1024x2048_1_1_0_0_n_n.rhsBatch by decide), dif_pos (show (0 : Fin S2048x1024.rank) ∈ dot_S1024x1024_S2048x1024_S1024x2048_1_1_0_0_n_n.rhsNonContracting by decide)]
  rfl
theorem chunk_rhs_sim_1 (i : S1024x2048.Idx) (q : dot_S1024x1024_S2048x1024_S1024x2048_1_1_0_0_n_n.contr.Idx) :
    (dot_S1024x1024_S2048x1024_S1024x2048_1_1_0_0_n_n.rhsIdx i q 1).val = (q ⟨0, by decide⟩).val :=
  dot_S1024x1024_S2048x1024_S1024x2048_1_1_0_0_n_n.rhsIdx_val_of_single rfl i q

/-- The similarities' product into the zero block: at `(r, j)` the sum over `d` of the left at `(r, d)` times the right at `(j, d)`. -/
theorem chunk_sim_apply (lhs : FVec Ideal S1024x1024 .bf16) (rhs : FVec Ideal S2048x1024 .bf16) (r : Fin 1024) (j : Fin 2048) :
    matmul dot_S1024x1024_S2048x1024_S1024x2048_1_1_0_0_n_n none lhs rhs (constant (F := Ideal) S1024x2048 .f32 0x00000000#32) (ix2 r j)
      = ∑ d : Fin 1024, lhs (ix2 r d) * rhs (ix2 j d) := by
  simp only [matmul]
  rw [Ideal.matmul_constant_zero_apply, ← Equiv.sum_comp (contrEquiv1 dot_S1024x1024_S2048x1024_S1024x2048_1_1_0_0_n_n 1024 rfl rfl).symm]
  refine Finset.sum_congr rfl fun k _ => ?_
  have hk := contrEquiv1_symm_val dot_S1024x1024_S2048x1024_S1024x2048_1_1_0_0_n_n 1024 rfl rfl k
  have el : dot_S1024x1024_S2048x1024_S1024x2048_1_1_0_0_n_n.lhsIdx (ix2 r j) ((contrEquiv1 dot_S1024x1024_S2048x1024_S1024x2048_1_1_0_0_n_n 1024 rfl rfl).symm k) = ix2 r k := funext fun a => Fin.ext (by
    match a with
    | ⟨0, _⟩ => exact chunk_lhs_sim_0 _ _
    | ⟨1, _⟩ => exact (chunk_lhs_sim_1 _ _).trans hk)
  have er : dot_S1024x1024_S2048x1024_S1024x2048_1_1_0_0_n_n.rhsIdx (ix2 r j) ((contrEquiv1 dot_S1024x1024_S2048x1024_S1024x2048_1_1_0_0_n_n 1024 rfl rfl).symm k) = ix2 j k := funext fun a => Fin.ext (by
    match a with
    | ⟨0, _⟩ => exact chunk_rhs_sim_0 _ _
    | ⟨1, _⟩ => exact (chunk_rhs_sim_1 _ _).trans hk)
  rw [el, er]

theorem chunk_lhs_mass_0 (i : S1024x1024.Idx) (q : dot_S1024x2048_S1024x2048_S1024x1024_1_1_0_0_n_n.contr.Idx) :
    (dot_S1024x2048_S1024x2048_S1024x1024_1_1_0_0_n_n.lhsIdx i q 0).val = (i 0).val := by
  unfold DotDims.lhsIdx
  rw [dif_neg (show ¬(0 : Fin S1024x2048.rank) ∈ dot_S1024x2048_S1024x2048_S1024x1024_1_1_0_0_n_n.lhsBatch by decide), dif_pos (show (0 : Fin S1024x2048.rank) ∈ dot_S1024x2048_S1024x2048_S1024x1024_1_1_0_0_n_n.lhsNonContracting by decide)]
  rfl
theorem chunk_lhs_mass_1 (i : S1024x1024.Idx) (q : dot_S1024x2048_S1024x2048_S1024x1024_1_1_0_0_n_n.contr.Idx) :
    (dot_S1024x2048_S1024x2048_S1024x1024_1_1_0_0_n_n.lhsIdx i q 1).val = (q ⟨0, by decide⟩).val :=
  dot_S1024x2048_S1024x2048_S1024x1024_1_1_0_0_n_n.lhsIdx_val_of_single rfl i q
theorem chunk_rhs_mass_0 (i : S1024x1024.Idx) (q : dot_S1024x2048_S1024x2048_S1024x1024_1_1_0_0_n_n.contr.Idx) :
    (dot_S1024x2048_S1024x2048_S1024x1024_1_1_0_0_n_n.rhsIdx i q 0).val = (i 1).val := by
  unfold DotDims.rhsIdx
  rw [dif_neg (show ¬(0 : Fin S1024x2048.rank) ∈ dot_S1024x2048_S1024x2048_S1024x1024_1_1_0_0_n_n.rhsBatch by decide), dif_pos (show (0 : Fin S1024x2048.rank) ∈ dot_S1024x2048_S1024x2048_S1024x1024_1_1_0_0_n_n.rhsNonContracting by decide)]
  rfl
theorem chunk_rhs_mass_1 (i : S1024x1024.Idx) (q : dot_S1024x2048_S1024x2048_S1024x1024_1_1_0_0_n_n.contr.Idx) :
    (dot_S1024x2048_S1024x2048_S1024x1024_1_1_0_0_n_n.rhsIdx i q 1).val = (q ⟨0, by decide⟩).val :=
  dot_S1024x2048_S1024x2048_S1024x1024_1_1_0_0_n_n.rhsIdx_val_of_single rfl i q

/-- The masses' product into the zero block: at `(r, q)` the sum over `j` of the left at `(r, j)` times the right at `(q, j)`. -/
theorem chunk_mass_apply (lhs : FVec Ideal S1024x2048 .bf16) (rhs : FVec Ideal S1024x2048 .bf16) (r : Fin 1024) (q : Fin 1024) :
    matmul dot_S1024x2048_S1024x2048_S1024x1024_1_1_0_0_n_n none lhs rhs (constant (F := Ideal) S1024x1024 .f32 0x00000000#32) (ix2 r q)
      = ∑ j : Fin 2048, lhs (ix2 r j) * rhs (ix2 q j) := by
  simp only [matmul]
  rw [Ideal.matmul_constant_zero_apply, ← Equiv.sum_comp (contrEquiv1 dot_S1024x2048_S1024x2048_S1024x1024_1_1_0_0_n_n 2048 rfl rfl).symm]
  refine Finset.sum_congr rfl fun k _ => ?_
  have hk := contrEquiv1_symm_val dot_S1024x2048_S1024x2048_S1024x1024_1_1_0_0_n_n 2048 rfl rfl k
  have el : dot_S1024x2048_S1024x2048_S1024x1024_1_1_0_0_n_n.lhsIdx (ix2 r q) ((contrEquiv1 dot_S1024x2048_S1024x2048_S1024x1024_1_1_0_0_n_n 2048 rfl rfl).symm k) = ix2 r k := funext fun a => Fin.ext (by
    match a with
    | ⟨0, _⟩ => exact chunk_lhs_mass_0 _ _
    | ⟨1, _⟩ => exact (chunk_lhs_mass_1 _ _).trans hk)
  have er : dot_S1024x2048_S1024x2048_S1024x1024_1_1_0_0_n_n.rhsIdx (ix2 r q) ((contrEquiv1 dot_S1024x2048_S1024x2048_S1024x1024_1_1_0_0_n_n 2048 rfl rfl).symm k) = ix2 q k := funext fun a => Fin.ext (by
    match a with
    | ⟨0, _⟩ => exact chunk_rhs_mass_0 _ _
    | ⟨1, _⟩ => exact (chunk_rhs_mass_1 _ _).trans hk)
  rw [el, er]

/-! ## The class indicator -/

/-- The bit of `a = b`, widened to a word and read as a signed integer, is the real `1` when the words agree and `0` when they do not. -/
theorem chunk_bit_apply (a b : BitVec 32) :
    (((((IntOp.cmpi .eq a b).setWidth 32).toInt : ℤ) : ℝ) : EReal) = if a = b then (1 : EReal) else 0 := by
  have hc : IntOp.cmpi .eq a b = BitVec.ofBool (a == b) := rfl
  rw [hc]
  by_cases h : a = b
  · rw [if_pos h, show (a == b) = true from beq_iff_eq.mpr h,
      show ((BitVec.ofBool true).setWidth 32).toInt = 1 from by decide, Int.cast_one, EReal.coe_one]
  · rw [if_neg h, show (a == b) = false from beq_eq_false_iff_ne.mpr h,
      show ((BitVec.ofBool false).setWidth 32).toInt = 0 from by decide, Int.cast_zero, EReal.coe_zero]

/-- The indicator block at `(q, j)`: `1` when the word of the class `q` is the label of centroid `j`, else `0`. The
    class counter runs along the rows, so at `(q, j)` it reads the word of `q`; the labels' row is the same on every row, so
    at `(q, j)` it reads the label of `j`. -/
theorem chunk_onehot_apply (lb : Vec Ideal S1x1x2048 .i32) (q : Fin 1024) (j : Fin 2048) :
    (truncf .bf16 (sitofp (F := Ideal) .f32 (extui 32 (cmpi .eq (iota .tc S1024x2048 32 [0] iota_S1024x2048_d0_w32)
        (broadcastTo S1024x2048 (shapeCast S1x2048 lb shapeCasts_S1x1x2048_S1x2048) broadcasts_S1x2048_S1024x2048)) natLt_1_32))
        bitsLt_bf16_f32 : FVec Ideal S1024x2048 .bf16) (ix2 q j)
      = if BitVec.ofNat 32 q.val = lb (ix3 0 0 j) then (1 : EReal) else 0 := by
  have h1 : iota .tc S1024x2048 32 [0] iota_S1024x2048_d0_w32 (ix2 q j) = BitVec.ofNat 32 q.val :=
    iota_single_apply .tc S1024x2048 32 0 iota_S1024x2048_d0_w32 (ix2 q j)
  have h2 : broadcastTo S1024x2048 (shapeCast S1x2048 lb shapeCasts_S1x1x2048_S1x2048) broadcasts_S1x2048_S1024x2048 (ix2 q j)
      = lb (ix3 0 0 j) :=
    (broadcastTo_1b_ab_apply _ broadcasts_S1x2048_S1024x2048 q j).trans
      (shapeCast_1ab_ab_apply lb shapeCasts_S1x1x2048_S1x2048 (0 : Fin 1) j)
  refine Eq.trans ?_ (chunk_bit_apply (BitVec.ofNat 32 q.val) (lb (ix3 0 0 j)))
  show (((((IntOp.cmpi .eq (iota .tc S1024x2048 32 [0] iota_S1024x2048_d0_w32 (ix2 q j))
      (broadcastTo S1024x2048 (shapeCast S1x2048 lb shapeCasts_S1x1x2048_S1x2048) broadcasts_S1x2048_S1024x2048 (ix2 q j))).setWidth 32).toInt
        : ℤ) : ℝ) : EReal) = _
  rw [h1, h2]

/-! ## The chunk -/

/-- One chunk of 2048 centroids: the class masses of sample row `r` from that chunk alone. -/
theorem chunk_apply (x1 : Vec Ideal S1024x1024 .f32) (cb : Vec Ideal S2048x1024 .bf16) (lb : Vec Ideal S1x1x2048 .i32)
    (r : Fin 1024) (q : Fin 1024) :
    k1_pay4 (F := Ideal) x1 cb lb (ix2 r q)
      = KMeans.massK KMeans.E KMeans.O (fun d : Fin 1024 => x1 (ix2 r d)) (fun (j : Fin 2048) (d : Fin 1024) => cb (ix2 j d))
          (fun (j : Fin 2048) (c' : Fin 1024) => BitVec.ofNat 32 c'.val = lb (ix3 0 0 j)) q := by
  unfold k1_pay4
  refine (chunk_mass_apply _ _ r q).trans ?_
  unfold KMeans.massK KMeans.simK
  refine Finset.sum_congr rfl fun j _ => ?_
  rw [chunk_onehot_apply lb q j]
  refine congrArg (· * _) ?_
  rw [truncf_apply]
  show Ideal.exp _ = Ideal.exp _
  refine congrArg Ideal.exp ?_
  rw [shapeCast_self]
  refine (chunk_sim_apply _ _ r j).trans ?_
  refine Finset.sum_congr rfl fun d _ => ?_
  rw [chunk_pay3_apply x1 r d]

end Cert.KernelIdeal.Body1

end
-- ==== Proof.Region1Math.lean ====
/-
  The second kernel's output block, read at row `r` and class `q`, is the cosine soft k-means score of class `q` for sample
  row `r`. The block accumulates the class masses of four chunks of 2048 centroids, ((chunk 0 + chunk 1) + chunk 2) + chunk 3,
  and a sum over 8192 centroids splits into those four sums; the last step divides each entry by the sum of its row, which is
  the sum over the 1024 classes of their masses.
-/
import proofs.«165227_g20968030339366_cont_sun_c4_238_16_alg».proof.Proof.Region1Def
import proofs.«165227_g20968030339366_cont_sun_c4_238_16_alg».proof.Proof.Region1Chunk
import proofs.«165227_g20968030339366_cont_sun_c4_238_16_alg».proof.Proof.Spec
import Idealize.ShloMosaic.Lib.ValueIdx
import Idealize.ShloMosaic.Lib.ValueLayout
import Idealize.ShloMosaic.Lib.Pipeline.Value
import Idealize.ShloMosaic.PureOps.Ideal.Laws
import Mathlib.Algebra.BigOperators.Fin

noncomputable section

namespace Cert.KernelIdeal.Body1

open Cert.KernelIdeal Cert.KernelIdeal.Gen Idealize.ShloMosaic Idealize.ShloMosaic.ValueIdx

namespace R1M

open scoped BigOperators

/-! ## The accumulating payloads are "earlier contents plus this chunk's masses"

Each later store adds, to what the block already holds, the very term the first chunk's store computes
(the same two matrix products over that chunk's centroids and labels); the cast of the block to its own shape
is the identity. -/
section Unfold
variable {F : FTy → Type} [FloatOps F]

theorem pay7_eq (x1 : Vec F S1024x1024 .f32) (cb : Vec F S2048x1024 .bf16) (lb : Vec F S1x1x2048 .i32)
    (acc : Vec F S1024x1024 .f32) :
    k1_pay7 (k1_pay5 x1 cb) (k1_pay6 lb) acc = addf acc (k1_pay4 x1 cb lb) := by
  show addf (shapeCast S1024x1024 acc _) (k1_pay4 x1 cb lb) = _
  rw [shapeCast_self]

theorem pay8_eq (x1 : Vec F S1024x1024 .f32) (cb : Vec F S2048x1024 .bf16) (lb : Vec F S1x1x2048 .i32)
    (acc : Vec F S1024x1024 .f32) :
    k1_pay8 (k1_pay3 x1) cb lb acc = addf acc (k1_pay4 x1 cb lb) := by
  show addf (shapeCast S1024x1024 acc _) (k1_pay4 x1 cb lb) = _
  rw [shapeCast_self]

theorem pay1_eq (x1 : Vec F S1024x1024 .f32) (cb : Vec F S2048x1024 .bf16) (lb : Vec F S1x1x2048 .i32)
    (acc : Vec F S1024x1024 .f32) :
    k1_pay1 (k1_pay9 (k1_pay3 x1) cb) (k1_pay10 lb) acc = addf acc (k1_pay4 x1 cb lb) := by
  show addf (shapeCast S1024x1024 acc _) (k1_pay4 x1 cb lb) = _
  rw [shapeCast_self]

/-- The last payload divides the block by the column vector of its row sums, broadcast along the rows. -/
theorem pay2_eq (A : Vec F S1024x1024 .f32) :
    k1_pay2 A = divf A (broadcastTo S1024x1024 (shapeCast S1024x1 (multiReduction .add [1] S1024 A 0x00000000#32
        reduces_S1024x1024_S1024 (.inl rfl) rfl) shapeCasts_S1024_S1024x1) broadcasts_S1024x1_S1024x1024) := by
  show divf (shapeCast S1024x1024 A _) (broadcastTo S1024x1024 (shapeCast S1024x1 (multiReduction .add [1] S1024
    (shapeCast S1024x1024 A _) 0x00000000#32 _ _ _) _) _) = _
  rw [shapeCast_self]

end Unfold

/-! ## Reading rows `[o, o + 2048)` of the centroids and labels `[o, o + 2048)`

A unit-stride rectangle's index is its offset plus the inner coordinate, axis by axis. -/
section Ld

theorem ld_c0 (x2 : Vec Ideal S8192x1024 .bf16) (j : Fin 2048) (d : Fin 1024) :
    View.ld x2 rc0 (ix2 j d) = x2 (ix2 (⟨j.val, by omega⟩ : Fin 8192) d) :=
  congrArg x2 (funext fun a => Fin.ext (by
    match a with
    | ⟨0, _⟩ => show 0 + 1 * j.val = j.val; omega
    | ⟨1, _⟩ => show 0 + 1 * d.val = d.val; omega))

theorem ld_c1 (x2 : Vec Ideal S8192x1024 .bf16) (j : Fin 2048) (d : Fin 1024) :
    View.ld x2 rc1 (ix2 j d) = x2 (ix2 (⟨2048 + j.val, by omega⟩ : Fin 8192) d) :=
  congrArg x2 (funext fun a => Fin.ext (by
    match a with
    | ⟨0, _⟩ => show 2048 + 1 * j.val = 2048 + j.val; omega
    | ⟨1, _⟩ => show 0 + 1 * d.val = d.val; omega))

theorem ld_c2 (x2 : Vec Ideal S8192x1024 .bf16) (j : Fin 2048) (d : Fin 1024) :
    View.ld x2 rc2 (ix2 j d) = x2 (ix2 (⟨4096 + j.val, by omega⟩ : Fin 8192) d) :=
  congrArg x2 (funext fun a => Fin.ext (by
    match a with
    | ⟨0, _⟩ => show 4096 + 1 * j.val = 4096 + j.val; omega
    | ⟨1, _⟩ => show 0 + 1 * d.val = d.val; omega))

theorem ld_c3 (x2 : Vec Ideal S8192x1024 .bf16) (j : Fin 2048) (d : Fin 1024) :
    View.ld x2 rc3 (ix2 j d) = x2 (ix2 (⟨6144 + j.val, by omega⟩ : Fin 8192) d) :=
  congrArg x2 (funext fun a => Fin.ext (by
    match a with
    | ⟨0, _⟩ => show 6144 + 1 * j.val = 6144 + j.val; omega
    | ⟨1, _⟩ => show 0 + 1 * d.val = d.val; omega))

theorem ld_l0 (x0 : Vec Ideal S1x1x8192 .i32) (j : Fin 2048) :
    View.ld x0 rl0 (ix3 (0 : Fin 1) (0 : Fin 1) j) = x0 (ix3 (0 : Fin 1) (0 : Fin 1) (⟨j.val, by omega⟩ : Fin 8192)) :=
  congrArg x0 (funext fun a => Fin.ext (by
    match a with
    | ⟨0, _⟩ => show 0 + 1 * 0 = 0; omega
    | ⟨1, _⟩ => show 0 + 1 * 0 = 0; omega
    | ⟨2, _⟩ => show 0 + 1 * j.val = j.val; omega))

theorem ld_l1 (x0 : Vec Ideal S1x1x8192 .i32) (j : Fin 2048) :
    View.ld x0 rl1 (ix3 (0 : Fin 1) (0 : Fin 1) j) = x0 (ix3 (0 : Fin 1) (0 : Fin 1) (⟨2048 + j.val, by omega⟩ : Fin 8192)) :=
  congrArg x0 (funext fun a => Fin.ext (by
    match a with
    | ⟨0, _⟩ => show 0 + 1 * 0 = 0; omega
    | ⟨1, _⟩ => show 0 + 1 * 0 = 0; omega
    | ⟨2, _⟩ => show 2048 + 1 * j.val = 2048 + j.val; omega))

theorem ld_l2 (x0 : Vec Ideal S1x1x8192 .i32) (j : Fin 2048) :
    View.ld x0 rl2 (ix3 (0 : Fin 1) (0 : Fin 1) j) = x0 (ix3 (0 : Fin 1) (0 : Fin 1) (⟨4096 + j.val, by omega⟩ : Fin 8192)) :=
  congrArg x0 (funext fun a => Fin.ext (by
    match a with
    | ⟨0, _⟩ => show 0 + 1 * 0 = 0; omega
    | ⟨1, _⟩ => show 0 + 1 * 0 = 0; omega
    | ⟨2, _⟩ => show 4096 + 1 * j.val = 4096 + j.val; omega))

theorem ld_l3 (x0 : Vec Ideal S1x1x8192 .i32) (j : Fin 2048) :
    View.ld x0 rl3 (ix3 (0 : Fin 1) (0 : Fin 1) j) = x0 (ix3 (0 : Fin 1) (0 : Fin 1) (⟨6144 + j.val, by omega⟩ : Fin 8192)) :=
  congrArg x0 (funext fun a => Fin.ext (by
    match a with
    | ⟨0, _⟩ => show 0 + 1 * 0 = 0; omega
    | ⟨1, _⟩ => show 0 + 1 * 0 = 0; omega
    | ⟨2, _⟩ => show 6144 + 1 * j.val = 6144 + j.val; omega))

end Ld

/-! ## A sum over 8192 centroids is the sum of the four chunks' sums -/
section Split

/-- A sum over `m + n` indices is the sum over the first `m` plus the sum over the last `n`. -/
theorem sum_fin_add_lit {M : Type} [AddCommMonoid M] (m n : ℕ) (f : Fin (m + n) → M) :
    ∑ k, f k = ∑ i : Fin m, f ⟨i.val, by omega⟩ + ∑ j : Fin n, f ⟨m + j.val, by omega⟩ := by
  rw [Fin.sum_univ_add]; rfl

/-- 8192 = ((2048 + 2048) + 2048) + 2048, the order in which the block accumulates the chunks. -/
theorem sum_split4 {M : Type} [AddCommMonoid M] (f : Fin 8192 → M) :
    ∑ k, f k = ((∑ j : Fin 2048, f ⟨j.val, by omega⟩ + ∑ j : Fin 2048, f ⟨2048 + j.val, by omega⟩)
        + ∑ j : Fin 2048, f ⟨4096 + j.val, by omega⟩) + ∑ j : Fin 2048, f ⟨6144 + j.val, by omega⟩ := by
  refine (sum_fin_add_lit 6144 2048 f).trans ?_
  refine congrArg (· + _) ?_
  refine (sum_fin_add_lit 4096 2048 (fun i : Fin 6144 => f ⟨i.val, by omega⟩)).trans ?_
  refine congrArg (· + _) ?_
  exact sum_fin_add_lit 2048 2048 (fun i : Fin 4096 => f ⟨i.val, by omega⟩)

end Split

/-! ## The class masses of a row: the four chunks' masses added are the mass over all 8192 centroids -/

/-- Centroid `k`'s contribution to class `q`'s mass for sample row `r`: `exp` of the similarity, times the indicator
    that `k`'s label is `q`. -/
def term (x0 : Vec Ideal S1x1x8192 .i32) (x1 : Vec Ideal S1024x1024 .f32) (x2 : Vec Ideal S8192x1024 .bf16)
    (r q : Fin 1024) (k : Fin 8192) : EReal :=
  Ideal.exp (KMeans.simK KMeans.E KMeans.O (fun d : Fin 1024 => x1 (ix2 r d))
      (fun (k : Fin 8192) (d : Fin 1024) => x2 (ix2 k d)) k)
    * (if BitVec.ofNat 32 q.val = x0 (ix3 0 0 k) then (1 : EReal) else 0)

/-- The class mass depends on the centroid table and the label test only through their values. -/
theorem massK_congr {K : Type} [Fintype K] (e o : EReal) (v : Fin 1024 → EReal) (cn cn' : K → Fin 1024 → EReal)
    (hit hit' : K → Fin 1024 → Prop) [∀ k c, Decidable (hit k c)] [∀ k c, Decidable (hit' k c)]
    (hcn : ∀ k d, cn k d = cn' k d) (hh : ∀ k c, hit k c ↔ hit' k c) (c : Fin 1024) :
    KMeans.massK e o v cn hit c = KMeans.massK e o v cn' hit' c := by
  unfold KMeans.massK KMeans.simK
  refine Finset.sum_congr rfl fun k _ => ?_
  have h1 : (∑ d, v d * Ideal.div o (KMeans.nrm e v) * cn k d) = ∑ d, v d * Ideal.div o (KMeans.nrm e v) * cn' k d :=
    Finset.sum_congr rfl fun d _ => by rw [hcn]
  rw [h1, if_congr (hh k c) rfl rfl]

theorem chunk0 (x0 : Vec Ideal S1x1x8192 .i32) (x1 : Vec Ideal S1024x1024 .f32) (x2 : Vec Ideal S8192x1024 .bf16)
    (r q : Fin 1024) :
    k1_pay4 (F := Ideal) x1 (View.ld x2 rc0) (View.ld x0 rl0) (ix2 r q)
      = ∑ j : Fin 2048, term x0 x1 x2 r q ⟨j.val, by omega⟩ := by
  refine (chunk_apply x1 (View.ld x2 rc0) (View.ld x0 rl0) r q).trans ?_
  refine (massK_congr KMeans.E KMeans.O _ _
    (fun (j : Fin 2048) (d : Fin 1024) => x2 (ix2 (⟨j.val, by omega⟩ : Fin 8192) d)) _
    (fun (j : Fin 2048) (c' : Fin 1024) =>
      BitVec.ofNat 32 c'.val = x0 (ix3 (0 : Fin 1) (0 : Fin 1) (⟨j.val, by omega⟩ : Fin 8192)))
    (fun j d => ld_c0 x2 j d) (fun j c' => by rw [ld_l0]) q).trans ?_
  rfl

theorem chunk1 (x0 : Vec Ideal S1x1x8192 .i32) (x1 : Vec Ideal S1024x1024 .f32) (x2 : Vec Ideal S8192x1024 .bf16)
    (r q : Fin 1024) :
    k1_pay4 (F := Ideal) x1 (View.ld x2 rc1) (View.ld x0 rl1) (ix2 r q)
      = ∑ j : Fin 2048, term x0 x1 x2 r q ⟨2048 + j.val, by omega⟩ := by
  refine (chunk_apply x1 (View.ld x2 rc1) (View.ld x0 rl1) r q).trans ?_
  refine (massK_congr KMeans.E KMeans.O _ _
    (fun (j : Fin 2048) (d : Fin 1024) => x2 (ix2 (⟨2048 + j.val, by omega⟩ : Fin 8192) d)) _
    (fun (j : Fin 2048) (c' : Fin 1024) =>
      BitVec.ofNat 32 c'.val = x0 (ix3 (0 : Fin 1) (0 : Fin 1) (⟨2048 + j.val, by omega⟩ : Fin 8192)))
    (fun j d => ld_c1 x2 j d) (fun j c' => by rw [ld_l1]) q).trans ?_
  rfl

theorem chunk2 (x0 : Vec Ideal S1x1x8192 .i32) (x1 : Vec Ideal S1024x1024 .f32) (x2 : Vec Ideal S8192x1024 .bf16)
    (r q : Fin 1024) :
    k1_pay4 (F := Ideal) x1 (View.ld x2 rc2) (View.ld x0 rl2) (ix2 r q)
      = ∑ j : Fin 2048, term x0 x1 x2 r q ⟨4096 + j.val, by omega⟩ := by
  refine (chunk_apply x1 (View.ld x2 rc2) (View.ld x0 rl2) r q).trans ?_
  refine (massK_congr KMeans.E KMeans.O _ _
    (fun (j : Fin 2048) (d : Fin 1024) => x2 (ix2 (⟨4096 + j.val, by omega⟩ : Fin 8192) d)) _
    (fun (j : Fin 2048) (c' : Fin 1024) =>
      BitVec.ofNat 32 c'.val = x0 (ix3 (0 : Fin 1) (0 : Fin 1) (⟨4096 + j.val, by omega⟩ : Fin 8192)))
    (fun j d => ld_c2 x2 j d) (fun j c' => by rw [ld_l2]) q).trans ?_
  rfl

theorem chunk3 (x0 : Vec Ideal S1x1x8192 .i32) (x1 : Vec Ideal S1024x1024 .f32) (x2 : Vec Ideal S8192x1024 .bf16)
    (r q : Fin 1024) :
    k1_pay4 (F := Ideal) x1 (View.ld x2 rc3) (View.ld x0 rl3) (ix2 r q)
      = ∑ j : Fin 2048, term x0 x1 x2 r q ⟨6144 + j.val, by omega⟩ := by
  refine (chunk_apply x1 (View.ld x2 rc3) (View.ld x0 rl3) r q).trans ?_
  refine (massK_congr KMeans.E KMeans.O _ _
    (fun (j : Fin 2048) (d : Fin 1024) => x2 (ix2 (⟨6144 + j.val, by omega⟩ : Fin 8192) d)) _
    (fun (j : Fin 2048) (c' : Fin 1024) =>
      BitVec.ofNat 32 c'.val = x0 (ix3 (0 : Fin 1) (0 : Fin 1) (⟨6144 + j.val, by omega⟩ : Fin 8192)))
    (fun j d => ld_c3 x2 j d) (fun j c' => by rw [ld_l3]) q).trans ?_
  rfl

/-- The block after the four chunks holds, at row `r` and class `q`, the mass of class `q` over all 8192 centroids:
    it holds ((chunk 0 + chunk 1) + chunk 2) + chunk 3, each chunk's mass the sum of its 2048 centroids' terms. -/
theorem masses_apply (x0 : Vec Ideal S1x1x8192 .i32) (x1 : Vec Ideal S1024x1024 .f32) (x2 : Vec Ideal S8192x1024 .bf16)
    (r q : Fin 1024) :
    masses (F := Ideal) x0 x1 x2 (ix2 r q)
      = KMeans.massK KMeans.E KMeans.O (fun d : Fin 1024 => x1 (ix2 r d))
          (fun (k : Fin 8192) (d : Fin 1024) => x2 (ix2 k d))
          (fun (k : Fin 8192) (c' : Fin 1024) => BitVec.ofNat 32 c'.val = x0 (ix3 0 0 k)) q := by
  unfold masses
  rw [pay1_eq, pay8_eq, pay7_eq]
  show ((k1_pay4 (F := Ideal) x1 (View.ld x2 rc0) (View.ld x0 rl0) (ix2 r q)
        + k1_pay4 (F := Ideal) x1 (View.ld x2 rc1) (View.ld x0 rl1) (ix2 r q))
        + k1_pay4 (F := Ideal) x1 (View.ld x2 rc2) (View.ld x0 rl2) (ix2 r q))
        + k1_pay4 (F := Ideal) x1 (View.ld x2 rc3) (View.ld x0 rl3) (ix2 r q) = _
  rw [chunk0, chunk1, chunk2, chunk3]
  exact (sum_split4 (term x0 x1 x2 r q)).symm

/-! ## The last payload at an index: the entry over its row's sum -/
section Keepdims
variable {α : Type}

/-- An `[a]` array cast to `[a, 1]` reads, at `(i, u)`, the operand at `i`: both have row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Keepdims

/-- The sum along axis 1 of a `1024 × 1024` block at row `r` is the sum of the row's 1024 entries: the reduced index
    `r` with the column `c` inserted is `(r, c)`. -/
theorem rowsum_apply (A : FVec Ideal S1024x1024 .f32) (h : S1024x1024.Reduces [1] S1024) (hφ : FKind.Formats .f32)
    (hacc : (0x00000000#32 : BitVec 32) = FKind.add.neutral .f32 hφ) (r : Fin 1024) :
    multiReduction (F := Ideal) .add [1] S1024 A 0x00000000#32 h hφ hacc (ix1 r) = ∑ c : Fin 1024, A (ix2 r c) := by
  refine (Ideal.multiReduction_add_single A 0x00000000#32 h hφ hacc (ix1 r)).trans ?_
  show ∑ c : Fin 1024, A (h.lift (ix1 r) c) = _
  refine Finset.sum_congr rfl fun c _ => congrArg A (funext fun a => Fin.ext ?_)
  match a with
  | ⟨0, _⟩ => rfl
  | ⟨1, _⟩ => rfl

theorem pay2_apply (A : Vec Ideal S1024x1024 .f32) (r q : Fin 1024) :
    k1_pay2 (F := Ideal) A (ix2 r q) = Ideal.div (A (ix2 r q)) (∑ c : Fin 1024, A (ix2 r c)) := by
  rw [pay2_eq]
  refine (divf_apply _ _ _).trans ?_
  refine congrArg (Ideal.div (A (ix2 r q))) ?_
  refine (broadcastTo_a1_ab_apply _ _ r q).trans ?_
  refine (shapeCast_a_a1_apply _ _ r 0).trans ?_
  exact rowsum_apply A _ _ _ r

end R1M

theorem body_apply (x0 : Vec Ideal S1x1x8192 .i32) (x1 : Vec Ideal S1024x1024 .f32) (x2 : Vec Ideal S8192x1024 .bf16)
    (r : Fin 1024) (q : Fin 1024) :
    body (F := Ideal) x0 x1 x2 (ix2 r q)
      = KMeans.scoreK KMeans.E KMeans.O (fun d : Fin 1024 => x1 (ix2 r d)) (fun (k : Fin 8192) (d : Fin 1024) => x2 (ix2 k d))
          (fun (k : Fin 8192) (c' : Fin 1024) => BitVec.ofNat 32 c'.val = x0 (ix3 0 0 k)) q := by
  unfold body
  rw [R1M.pay2_apply, R1M.masses_apply,
    Finset.sum_congr rfl fun (c' : Fin 1024) _ => R1M.masses_apply x0 x1 x2 r c']
  rfl

end Cert.KernelIdeal.Body1

end
-- ==== Proof.Region1Value.lean ====
import proofs.«165227_g20968030339366_cont_sun_c4_238_16_alg».proof.Proof.Region1Body
import proofs.«165227_g20968030339366_cont_sun_c4_238_16_alg».proof.Proof.Region1Math

noncomputable section

namespace Cert.KernelIdeal.Value1

open Cert.KernelIdeal Cert.KernelIdeal.Gen Cert.KernelIdeal.Body1 Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The printed index maps, decided over the sixteen points: the labels and the centroids are read whole at every
    point; the sample rows and the output move together, block row `t` at point `t`. -/
theorem idx_facts : ∀ t : Fin cfg1.N,
    win1_0.index t (0 : Fin 3) = 0 ∧ win1_0.index t (1 : Fin 3) = 0 ∧ win1_0.index t (2 : Fin 3) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The labels' block at any point is the labels array. -/
theorem lbl_blk (c : Dev nD) (t : Fin cfg1.N) (k : Fin 8192) :
    (iblk1 V c 0 t : Vec Ideal S1x1x8192 .i32) (ix3 0 0 k) = (V c main_v1 : S1x1x8192.Idx → BitVec 32) (ix3 0 0 k) := by
  obtain ⟨e0, e1, e2, -⟩ := idx_facts t
  unfold iblk1
  rw [View.read_apply]
  show V c main_v1 _ = V c main_v1 _
  congr 1
  funext a
  apply Fin.ext
  match a with
  | ⟨0, _⟩ => show win1_0.index t 0 * 1 + 1 * 0 = 0; rw [e0]
  | ⟨1, _⟩ => show win1_0.index t 1 * 1 + 1 * 0 = 0; rw [e1]
  | ⟨2, _⟩ => show win1_0.index t 2 * 8192 + 1 * k.val = k.val; rw [e2]; omega

/-- The centroids' block at any point is the centroid array. -/
theorem cen_blk (c : Dev nD) (t : Fin cfg1.N) (k : Fin 8192) (d : Fin 1024) :
    (iblk1 V c 2 t : Vec Ideal S8192x1024 .bf16) (ix2 k d) = (V c main_v0 : S8192x1024.Idx → EReal) (ix2 k d) := by
  obtain ⟨-, -, -, -, -, e0, e1, -⟩ := idx_facts t
  unfold iblk1
  rw [View.read_apply]
  show V c main_v0 _ = V c main_v0 _
  congr 1
  funext a
  apply Fin.ext
  match a with
  | ⟨0, _⟩ => show win1_2.index t 0 * 8192 + 1 * k.val = k.val; rw [e0]; omega
  | ⟨1, _⟩ => show win1_2.index t 1 * 1024 + 1 * d.val = d.val; rw [e1]; omega

/-- Row `r` of the sample block at point `t` is row `1024 t + r` of the sample array. -/
theorem row_blk (c : Dev nD) (t : Fin cfg1.N) (r d : Fin 1024) (n : Fin 16384) (hn : n.val = 1024 * t.val + r.val) :
    (iblk1 V c 1 t : Vec Ideal S1024x1024 .f32) (ix2 r d) = (V c main_arg0 : S16384x1024.Idx → EReal) (ix2 n d) := by
  obtain ⟨-, -, -, e0, e1, -⟩ := idx_facts t
  unfold iblk1
  rw [View.read_apply]
  show V c main_arg0 _ = V c main_arg0 _
  congr 1
  funext a
  apply Fin.ext
  match a with
  | ⟨0, _⟩ => show win1_1.index t 0 * 1024 + 1 * r.val = n.val; rw [e0, hn]; omega
  | ⟨1, _⟩ => show win1_1.index t 1 * 1024 + 1 * d.val = d.val; rw [e1]; omega

/-- Two hit relations that agree give the same class masses, whatever decision procedures they carry. -/
theorem massK_congr_hit {D K C : Type} [Fintype D] [Fintype K] [Fintype C] (e o : EReal) (v : D → EReal) (cn : K → D → EReal)
    (hit hit' : K → C → Prop) [∀ k c, Decidable (hit k c)] [∀ k c, Decidable (hit' k c)] (hh : ∀ k c, hit k c ↔ hit' k c) (c : C) :
    KMeans.massK e o v cn hit c = KMeans.massK e o v cn hit' c := by
  unfold KMeans.massK
  exact Finset.sum_congr rfl fun k _ => by rw [if_congr (hh k c) rfl rfl]

/-- So they give the same scores. -/
theorem scoreK_congr {D K C : Type} [Fintype D] [Fintype K] [Fintype C] (e o : EReal) (v v' : D → EReal) (cn cn' : K → D → EReal)
    (hit hit' : K → C → Prop) [∀ k c, Decidable (hit k c)] [∀ k c, Decidable (hit' k c)] (hv : ∀ d, v d = v' d) (hcn : ∀ k d, cn k d = cn' k d)
    (hh : ∀ k c, hit k c ↔ hit' k c) (c : C) :
    KMeans.scoreK e o v cn hit c = KMeans.scoreK e o v' cn' hit' c := by
  obtain rfl : v = v' := funext hv
  obtain rfl : cn = cn' := funext fun k => funext fun d => hcn k d
  unfold KMeans.scoreK
  rw [massK_congr_hit e o v cn hit hit' hh c]
  exact congrArg _ (Finset.sum_congr rfl fun c' _ => massK_congr_hit e o v cn hit hit' hh c')

/-- Row `r` of the body's block, when the labels' and the centroids' blocks are the arrays `a0`, `a2` and row `r` of the
    sample block is row `n` of the array `a1`: the scores of row `n`. -/
theorem body_of_rows (x0 : Vec Ideal S1x1x8192 .i32) (x1 : Vec Ideal S1024x1024 .f32) (x2 : Vec Ideal S8192x1024 .bf16)
    (a0 : S1x1x8192.Idx → BitVec 32) (a1 : S16384x1024.Idx → EReal) (a2 : S8192x1024.Idx → EReal)
    (r q : Fin 1024) (n : Fin 16384)
    (h0 : ∀ k : Fin 8192, x0 (ix3 0 0 k) = a0 (ix3 0 0 k))
    (h1 : ∀ d : Fin 1024, x1 (ix2 r d) = a1 (ix2 n d))
    (h2 : ∀ (k : Fin 8192) (d : Fin 1024), x2 (ix2 k d) = a2 (ix2 k d)) :
    body (F := Ideal) x0 x1 x2 (ix2 r q)
      = KMeans.scoreK KMeans.E KMeans.O (fun d : Fin 1024 => a1 (ix2 n d)) (fun (k : Fin 8192) (d : Fin 1024) => a2 (ix2 k d))
          (fun (k : Fin 8192) (c' : Fin 1024) => BitVec.ofNat 32 c'.val = a0 (ix3 0 0 k)) q :=
  (body_apply x0 x1 x2 r q).trans
    (scoreK_congr _ _ _ _ _ _ _ _ h1 h2 (fun k c' => by rw [h0 k]) q)

/-- The scores of sample row `n`, of the arrays as the region finds them. -/
def score (c : Dev nD) (n : Fin 16384) (q : Fin 1024) : EReal :=
  KMeans.scoreK KMeans.E KMeans.O (fun d : Fin 1024 => (V c main_arg0 : S16384x1024.Idx → EReal) (ix2 n d))
    (fun (k : Fin 8192) (d : Fin 1024) => (V c main_v0 : S8192x1024.Idx → EReal) (ix2 k d))
    (fun (k : Fin 8192) (c' : Fin 1024) => BitVec.ofNat 32 c'.val = (V c main_v1 : S1x1x8192.Idx → BitVec 32) (ix3 0 0 k)) q

/-- The whole output array: entry `(n, q)` is the score of row `n` for class `q`. -/
def G (c : Dev nD) : S16384x1024.Idx → EReal := fun i => score V c (i 0) (i 1)

/-- What point `t` writes back is block `t` of `G`. -/
theorem flushed_eq (c : Dev nD) (t : Fin cfg1.N) :
    (dat1 (F := Ideal) V c).flushed 3 t = ((cfg1.win 3).blk t).view.read (Elt Ideal) (G V c) := by
  show (cfg1.win 3).cut (grid1.coords t) ((dat1 V c).after 3 t) = _
  rw [after1_3]
  unfold outsAt1
  rw [out1_eq_body]
  refine funext fun j => ?_
  obtain ⟨r, q, rfl⟩ : ∃ (r q : Fin 1024), j = ix2 r q := ⟨j 0, j 1, eq_ix2 j⟩
  have hx : (cfg1.win 3).xinj (grid1.coords t) (ix2 r q) = ix2 r q := by
    funext a
    match a with
    | ⟨0, _⟩ => rfl
    | ⟨1, _⟩ => rfl
  show body (F := Ideal) (iblk1 V c 0 t) (iblk1 V c 1 t) (iblk1 V c 2 t) ((cfg1.win 3).xinj (grid1.coords t) (ix2 r q)) = _
  rw [hx, View.read_apply]
  obtain ⟨-, -, -, -, -, -, -, e0, e1⟩ := idx_facts t
  have hN : cfg1.N = 16 := N_1
  have hn : 1024 * t.val + r.val < 16384 := by have := t.isLt; omega
  have he : ((cfg1.win 3).blk t).view.emb (ix2 r q) = ix2 (⟨1024 * t.val + r.val, hn⟩ : Fin 16384) q := by
    funext a
    apply Fin.ext
    match a with
    | ⟨0, _⟩ => show win1_3.index t 0 * 1024 + 1 * r.val = 1024 * t.val + r.val; rw [e0]; omega
    | ⟨1, _⟩ => show win1_3.index t 1 * 1024 + 1 * q.val = q.val; rw [e1]; omega
  rw [he]
  show _ = score V c ⟨1024 * t.val + r.val, hn⟩ q
  exact body_of_rows (iblk1 V c 0 t) (iblk1 V c 1 t) (iblk1 V c 2 t) (V c main_v1) (V c main_arg0) (V c main_v0) r q ⟨1024 * t.val + r.val, hn⟩
    (fun k => lbl_blk V c t k) (fun d => row_blk V c t r d _ rfl) (fun k d => cen_blk V c t k d)

/-- Every entry of the output array is in the block of the point its row falls to: row `n` in point `n / 1024`'s. -/
theorem cover (i : S16384x1024.Idx) :
    ∃ t : Fin cfg1.N, (cfg1.win 3).flush t = true ∧ i ∈ ((cfg1.win 3).blk t).view.set := by
  have h0 : (i 0).val < 16384 := idx2_lt0 i
  have h1 : (i 1).val < 1024 := idx2_lt1 i
  have hN : cfg1.N = 16 := N_1
  obtain ⟨t, ht⟩ : ∃ t : Fin cfg1.N, t.val = (i 0).val / 1024 := ⟨⟨(i 0).val / 1024, by rw [hN]; omega⟩, rfl⟩
  obtain ⟨-, -, -, -, -, -, -, e0, e1⟩ := idx_facts t
  refine ⟨t, flush1_3 t, ?_⟩
  show i ∈ ((View.whole main_v2).slice (win1_3.rect t)).set
  rw [View.set_slice_whole, Rect.mem_set_unit]
  intro a
  match a with
  | ⟨0, _⟩ =>
    show win1_3.index t 0 * 1024 ≤ (i 0).val ∧ (i 0).val < win1_3.index t 0 * 1024 + 1024
    rw [e0, ht]; omega
  | ⟨1, _⟩ =>
    show win1_3.index t 1 * 1024 ≤ (i 1).val ∧ (i 1).val < win1_3.index t 1 * 1024 + 1024
    rw [e1]; omega

/-- So the output array ends holding `G`. -/
theorem arr1_eq (c : Dev nD) : (dat1 (F := Ideal) V c).arrAt 3 cfg1.N = G V c :=
  (dat1 V c).arrAt_eq_of_cover 3 (G V c) (fun t _ => flushed_eq V c t) cover

theorem arr1_apply (c : Dev nD) (n : Fin 16384) (q : Fin 1024) :
    ((dat1 (F := Ideal) V c).arrAt 3 cfg1.N : S16384x1024.Idx → EReal) (ix2 n q)
      = KMeans.scoreK KMeans.E KMeans.O (fun d : Fin 1024 => (V c main_arg0 : S16384x1024.Idx → EReal) (ix2 n d))
          (fun (k : Fin 8192) (d : Fin 1024) => (V c main_v0 : S8192x1024.Idx → EReal) (ix2 k d))
          (fun (k : Fin 8192) (c' : Fin 1024) => BitVec.ofNat 32 c'.val = (V c main_v1 : S1x1x8192.Idx → BitVec 32) (ix3 0 0 k)) q := by
  show _ = G V c (ix2 n q)
  exact congrFun (arr1_eq V c) (ix2 n q)

end Cert.KernelIdeal.Value1

end
-- ==== Proof.KernelValue.lean ====
/-
  The kernel program's result in terms of its arguments. The run ends with the result buffer at what the second region's
  write-backs leave. That region finds the sample array as launched, the centroid array at what the FIRST region left (every
  centroid row divided by its guarded length), and the labels viewed as a [1, 1, 8192] array by the one host operation
  between the regions; reading the two regions' arrays at an index gives the class score of sample `n`.
-/
import proofs.«165227_g20968030339366_cont_sun_c4_238_16_alg».proof.Proof.KernelRun
import proofs.«165227_g20968030339366_cont_sun_c4_238_16_alg».proof.Proof.Region0Value
import proofs.«165227_g20968030339366_cont_sun_c4_238_16_alg».proof.Proof.Region1Value
import Idealize.ShloMosaic.Lib.StableHlo.Run

set_option maxRecDepth 16384

noncomputable section

namespace KMeans

variable {D K C : Type} [Fintype D] [Fintype K] [Fintype C]

/-- The kernels' score depends on the class indicator only through which centroids hit which class. -/
theorem scoreK_congr (e o : EReal) {v v' : D → EReal} {cn cn' : K → D → EReal} {hit hit' : K → C → Prop}
    [∀ k c, Decidable (hit k c)] [∀ k c, Decidable (hit' k c)] (hv : v = v') (hcn : cn = cn')
    (hh : ∀ k c, hit k c ↔ hit' k c) (c : C) : scoreK e o v cn hit c = scoreK e o v' cn' hit' c := by
  subst hv hcn
  have e1 : ∀ k c, (if hit k c then (1 : EReal) else 0) = if hit' k c then (1 : EReal) else 0 := fun k c => by
    by_cases h : hit k c
    · rw [if_pos h, if_pos ((hh k c).mp h)]
    · rw [if_neg h, if_neg (fun h' => h ((hh k c).mpr h'))]
  unfold scoreK massK
  simp only [e1]

end KMeans

namespace Cert.KernelIdeal.Value

open Cert.KernelIdeal Cert.KernelIdeal.Gen Idealize.ShloMosaic Idealize.ShloMosaic.TcCoe Idealize.SL.Sem
open Idealize.ShloMosaic.ValueIdx Idealize.ShloMosaic.StableHlo

variable (m : (ℓ : Loc nD τ sig) → Buf (Elt Ideal) ℓ) (ρ : Dev nD → PrngReg)

/-- The second region finds the sample array as launched: neither the first region nor the host operation writes it. -/
theorem entry_x (c : Dev nD) : V2 m ρ c main_arg0 = m ((c.tc : Thread nD τ).loc main_arg0) :=
  calc W2 m ρ c (Proc.devRef .tc main_arg0)
    _ = W1 m ρ c (Proc.devRef .tc main_arg0) := StableHlo.after_of_forall_not_mem (b := Proc.devRef .tc main_arg0) _ _ (List.forall_iff_forall_mem.mp (by
          simp only [hostOps1, List.Forall, StableHlo.reshape_writes, Finset.mem_singleton]
          exact StableHlo.devRef_ne_of_ne (by decide)))
    _ = W0 m ρ c (Proc.devRef .tc main_arg0) := W1_of_ne m ρ c main_arg0 (by decide)
    _ = m ((c : Thread nD τ).loc main_arg0) := rfl

/-- It finds the centroid array at what the first region's write-backs left. -/
theorem entry_cn (c : Dev nD) : V2 m ρ c main_v0 = (dat0 (V0 m ρ) c).arrAt 1 cfg0.N :=
  calc W2 m ρ c (Proc.devRef .tc main_v0)
    _ = W1 m ρ c (Proc.devRef .tc main_v0) := StableHlo.after_of_forall_not_mem (b := Proc.devRef .tc main_v0) _ _ (List.forall_iff_forall_mem.mp (by
          simp only [hostOps1, List.Forall, StableHlo.reshape_writes, Finset.mem_singleton]
          exact StableHlo.devRef_ne_of_ne (by decide)))
    _ = (dat0 (V0 m ρ) c).arrAt 1 cfg0.N := W1_arr m ρ c 1

/-- It finds the labels as the [8192] argument viewed [1, 1, 8192]: entry (0, 0, k) is label k. -/
theorem entry_lab (c : Dev nD) (k : Fin 8192) :
    (V2 m ρ c main_v1 : S1x1x8192.Idx → BitVec 32) (ix3 0 0 k)
      = (m ((c.tc : Thread nD τ).loc main_arg2) : S8192.Idx → BitVec 32) (ix1 k) := by
  have e : (V2 m ρ c main_v1 : S1x1x8192.Idx → BitVec 32)
      = shapeCast S1x1x8192 (W1 m ρ c (Proc.devRef .tc main_arg2) : S8192.Idx → BitVec 32) shapeCasts_S8192_S1x1x8192 := by
    show StableHlo.after hostOps1 (W1 m ρ c) (Proc.devRef .tc main_v1) = _
    after_results
    rfl
  rw [e, W1_of_ne m ρ c main_arg2 (by decide)]
  refine shapeCast_apply _ _ _ _ ?_
  show ((⟨1, ![8192]⟩ : Shape).rowMajor (ix1 k)).val = ((⟨3, ![1, 1, 8192]⟩ : Shape).rowMajor (ix3 0 0 k)).val
  rw [Shape.rowMajor_val_one, Shape.rowMajor_val_three]
  show k.val = ((0 : Fin 1).val * 1 + (0 : Fin 1).val) * 8192 + k.val
  simp

theorem kernel_value (c : Dev nD) (n : Fin 16384) (q : Fin 1024) :
    (W3 (F := Ideal) m ρ c (Proc.devRef .tc main_v2) : S16384x1024.Idx → EReal) (ix2 n q)
      = KMeans.scoreK KMeans.E KMeans.O
          (fun d : Fin 1024 => (m ((c.tc : Thread nD τ).loc main_arg0) : S16384x1024.Idx → EReal) (ix2 n d))
          (fun (k : Fin 8192) => KMeans.unit KMeans.E
            (fun d' : Fin 1024 => (m ((c.tc : Thread nD τ).loc main_arg1) : S8192x1024.Idx → EReal) (ix2 k d')))
          (fun (k : Fin 8192) (c' : Fin 1024) =>
            BitVec.ofNat 32 c'.val = (m ((c.tc : Thread nD τ).loc main_arg2) : S8192.Idx → BitVec 32) (ix1 k)) q := by
  refine (congrFun (W3_arr m ρ c 3) (ix2 n q)).trans ?_
  refine (Cert.KernelIdeal.Value1.arr1_apply (V2 m ρ) c n q).trans ?_
  refine KMeans.scoreK_congr _ _ ?_ ?_ ?_ q
  · funext d; exact congrFun (entry_x m ρ c) _
  · funext k d
    exact (congrFun (entry_cn m ρ c) _).trans (Cert.KernelIdeal.Value0.arr0_apply (V0 m ρ) c k d)
  · intro k c'
    rw [entry_lab m ρ c k]

end Cert.KernelIdeal.Value

end
-- ==== Proof.Scatter.lean ====
import proofs.«165227_g20968030339366_cont_sun_c4_238_16_alg».proof.Proof.Gen.ReferenceIdeal
import Idealize.ShloMosaic.Lib.ValueIdx

noncomputable section

namespace Cert.ReferenceIdeal.Scatter

open Cert.ReferenceIdeal Cert.ReferenceIdeal.Gen Idealize.ShloMosaic Idealize.ShloMosaic.ValueIdx

/-! ## A class label read signed

A 32-bit word read as a signed integer equals a class number `c < 1024` exactly when the word is
the numeral `c`: the signed reading of a word below `2 ^ 31` is its unsigned value, and a word at or
above `2 ^ 31` reads negative. -/

theorem toInt_eq_iff (v : BitVec 32) (c : Nat) (hc : c < 1024) :
    v.toInt = (c : Int) ↔ BitVec.ofNat 32 c = v := by
  constructor
  · intro h
    apply BitVec.eq_of_toNat_eq
    rw [BitVec.toNat_ofNat]
    rw [BitVec.toInt_eq_toNat_cond] at h
    have := v.isLt
    split at h <;> omega
  · rintro rfl
    rw [BitVec.toInt_eq_toNat_cond, BitVec.toNat_ofNat]
    have : c % 2 ^ 32 = c := Nat.mod_eq_of_lt (by omega)
    rw [this]
    split <;> omega

/-! ## The start and window coordinates of update `(k, m)`

The dimension numbers scatter along operand axis 0 (the class axis) and keep operand axis 1 (the
sample axis) as the one window axis, fed by update axis 1. So for update index `(k, m)`: the start on
axis 0 is the label of centroid `k` read signed and the window coordinate there is `0`; the start
on axis 1 is `0` and the window coordinate there is `m`. -/

theorem start_zero (k : Fin 8192) (m : Fin 16384) (idx : S8192x1.Idx → BitVec 32) :
    scatter_S1024x16384_S8192x1_S8192x16384_1_0_0_1.start (ix2 k m) idx (0 : Fin 2)
      = (idx (ix2 k (0 : Fin 1))).toInt := by
  unfold ScatterDims.start
  rw [dif_pos (show (0 : Fin 2) ∈ scatter_S1024x16384_S8192x1_S8192x16384_1_0_0_1.scatterDimsToOperandDims from
    List.mem_singleton.mpr rfl)]
  have hsi : scatter_S1024x16384_S8192x1_S8192x16384_1_0_0_1.siIdx (ix2 k m)
      ⟨List.idxOf (0 : Fin 2) scatter_S1024x16384_S8192x1_S8192x16384_1_0_0_1.scatterDimsToOperandDims,
        List.idxOf_lt_length_iff.2 (List.mem_singleton.mpr rfl)⟩ = ix2 k (0 : Fin 1) := by
    funext b; refine Fin.ext ?_
    match b with
    | ⟨0, _⟩ => rfl
    | ⟨1, _⟩ => rfl
  rw [hsi]

theorem start_one (k : Fin 8192) (m : Fin 16384) (idx : S8192x1.Idx → BitVec 32) :
    scatter_S1024x16384_S8192x1_S8192x16384_1_0_0_1.start (ix2 k m) idx (1 : Fin 2) = 0 := by
  unfold ScatterDims.start
  rw [dif_neg (show ¬ (1 : Fin 2) ∈ scatter_S1024x16384_S8192x1_S8192x16384_1_0_0_1.scatterDimsToOperandDims by
    decide)]

theorem window_zero (k : Fin 8192) (m : Fin 16384) :
    scatter_S1024x16384_S8192x1_S8192x16384_1_0_0_1.window (ix2 k m) (0 : Fin 2) = 0 := by
  unfold ScatterDims.window
  rw [dif_neg (show ¬ (0 : Fin 2) ∈ scatter_S1024x16384_S8192x1_S8192x16384_1_0_0_1.sKept by decide)]

theorem window_one (k : Fin 8192) (m : Fin 16384) :
    scatter_S1024x16384_S8192x1_S8192x16384_1_0_0_1.window (ix2 k m) (1 : Fin 2) = m.val := by
  unfold ScatterDims.window
  rw [dif_pos (show (1 : Fin 2) ∈ scatter_S1024x16384_S8192x1_S8192x16384_1_0_0_1.sKept by decide)]
  rfl

/-! ## Where update `(k, m)` lands

Update `(k, m)` lands on operand element `(cls, n)` exactly when centroid `k`'s label, read signed,
is `cls` and `m = n`: the landing index is (label + 0, 0 + m), kept when the label lies in
`[0, 1024)` and dropped otherwise. -/

theorem resultIdx_iff (k : Fin 8192) (m : Fin 16384) (idx : S8192x1.Idx → BitVec 32)
    (cls : Fin 1024) (n : Fin 16384) :
    scatter_S1024x16384_S8192x1_S8192x16384_1_0_0_1.resultIdx? (ix2 k m) idx = some (ix2 cls n)
      ↔ (idx (ix2 k (0 : Fin 1))).toInt = (cls.val : Int) ∧ m = n := by
  unfold ScatterDims.resultIdx?
  split
  · rename_i h
    have h0 := h (0 : Fin 2)
    rw [start_zero, window_zero] at h0
    constructor
    · intro he
      have he' := Option.some.inj he
      have e0 := congrArg (fun f => (f (0 : Fin 2)).val) he'
      have e1 := congrArg (fun f => (f (1 : Fin 2)).val) he'
      simp only [start_zero, window_zero, start_one, window_one] at e0 e1
      have hc : (ix2 cls n (0 : Fin 2)).val = cls.val := rfl
      have hn : (ix2 cls n (1 : Fin 2)).val = n.val := rfl
      rw [hc] at e0; rw [hn] at e1
      refine ⟨by omega, Fin.ext (by omega)⟩
    · rintro ⟨hl, rfl⟩
      refine congrArg some ?_
      funext a; refine Fin.ext ?_
      match a with
      | ⟨0, _⟩ =>
        show (scatter_S1024x16384_S8192x1_S8192x16384_1_0_0_1.start (ix2 k m) idx (0 : Fin 2)
          + scatter_S1024x16384_S8192x1_S8192x16384_1_0_0_1.window (ix2 k m) (0 : Fin 2)).toNat = cls.val
        rw [start_zero, window_zero]; omega
      | ⟨1, _⟩ =>
        show (scatter_S1024x16384_S8192x1_S8192x16384_1_0_0_1.start (ix2 k m) idx (1 : Fin 2)
          + scatter_S1024x16384_S8192x1_S8192x16384_1_0_0_1.window (ix2 k m) (1 : Fin 2)).toNat = m.val
        rw [start_one, window_one]; omega
  · rename_i h
    constructor
    · intro he; exact absurd he (by simp)
    · rintro ⟨hl, rfl⟩
      exfalso; apply h
      intro a
      match a with
      | ⟨0, _⟩ =>
        show 0 ≤ scatter_S1024x16384_S8192x1_S8192x16384_1_0_0_1.start (ix2 k m) idx (0 : Fin 2)
            + scatter_S1024x16384_S8192x1_S8192x16384_1_0_0_1.window (ix2 k m) (0 : Fin 2)
          ∧ scatter_S1024x16384_S8192x1_S8192x16384_1_0_0_1.start (ix2 k m) idx (0 : Fin 2)
            + scatter_S1024x16384_S8192x1_S8192x16384_1_0_0_1.window (ix2 k m) (0 : Fin 2) < (1024 : Nat)
        rw [start_zero, window_zero]
        have := cls.isLt
        omega
      | ⟨1, _⟩ =>
        show 0 ≤ scatter_S1024x16384_S8192x1_S8192x16384_1_0_0_1.start (ix2 k m) idx (1 : Fin 2)
            + scatter_S1024x16384_S8192x1_S8192x16384_1_0_0_1.window (ix2 k m) (1 : Fin 2)
          ∧ scatter_S1024x16384_S8192x1_S8192x16384_1_0_0_1.start (ix2 k m) idx (1 : Fin 2)
            + scatter_S1024x16384_S8192x1_S8192x16384_1_0_0_1.window (ix2 k m) (1 : Fin 2) < (16384 : Nat)
        rw [start_one, window_one]
        have := m.isLt
        omega

/-! ## The scatter read at `(cls, n)`

The updates landing on `(cls, n)` are the `(k, n)` with centroid `k` labelled `cls`: the sum over
update indices splits by coordinates, and on row `k` only column `n` can contribute, and does
exactly when the label of `k` is the numeral `cls`. -/

theorem scatter_apply (x : S1024x16384.Idx → EReal) (idx : S8192x1.Idx → BitVec 32) (upd : S8192x16384.Idx → EReal)
    (cls : Fin 1024) (n : Fin 16384) :
    Ideal.hostScatterAdd scatter_S1024x16384_S8192x1_S8192x16384_1_0_0_1 x idx upd (ix2 cls n)
      = x (ix2 cls n)
        + ∑ k ∈ Finset.univ.filter (fun k : Fin 8192 => BitVec.ofNat 32 cls.val = idx (ix2 k (0 : Fin 1))), upd (ix2 k n) := by
  unfold Ideal.hostScatterAdd
  refine congrArg (HAdd.hAdd (x (ix2 cls n))) ?_
  rw [Finset.sum_filter, Finset.sum_filter, sum_idx2]
  refine Finset.sum_congr rfl fun k _ => ?_
  by_cases hk : BitVec.ofNat 32 cls.val = idx (ix2 k (0 : Fin 1))
  · rw [if_pos hk, Finset.sum_eq_single n]
    · rw [if_pos ((resultIdx_iff k n idx cls n).2 ⟨(toInt_eq_iff _ _ cls.isLt).2 hk, rfl⟩)]
    · intro m _ hm
      rw [if_neg]
      intro h
      exact hm ((resultIdx_iff k m idx cls n).1 h).2
    · intro h; exact absurd (Finset.mem_univ n) h
  · rw [if_neg hk]
    refine Finset.sum_eq_zero fun m _ => ?_
    rw [if_neg]
    intro h
    exact hk ((toInt_eq_iff _ _ cls.isLt).1 ((resultIdx_iff k m idx cls n).1 h).1)

end Cert.ReferenceIdeal.Scatter

end
-- ==== Proof.RefValue.lean ====
import proofs.«165227_g20968030339366_cont_sun_c4_238_16_alg».proof.Proof.Gen.ReferenceIdeal.Run
import proofs.«165227_g20968030339366_cont_sun_c4_238_16_alg».proof.Proof.Gen.ReferenceIdeal.Read
import proofs.«165227_g20968030339366_cont_sun_c4_238_16_alg».proof.Proof.Scatter
import proofs.«165227_g20968030339366_cont_sun_c4_238_16_alg».proof.Proof.Spec

noncomputable section

namespace Cert.ReferenceIdeal.RefValue

open Cert.ReferenceIdeal Cert.ReferenceIdeal.Gen Idealize.ShloMosaic Idealize.ShloMosaic.TcCoe Idealize.SL.Sem
open Idealize.ShloMosaic.ValueIdx
open Cert.ReferenceIdeal.Read

variable (x0 : (⟨S16384x1024, .f32⟩ : BufTy).Contents (Elt Ideal))
  (x1 : (⟨S8192x1024, .f32⟩ : BufTy).Contents (Elt Ideal))
  (x2 : (⟨S8192, .i32⟩ : BufTy).Contents (Elt Ideal))

/-- The guarded length of sample row `n`: the square root of the row's sum of squares (the sum starts from the zero
    word, which is 0) plus the guard. -/
theorem norm_sample (n : Fin 16384) (z : Fin 1) :
    val_main_v2 (F := Ideal) x0 (ix2 n z) = KMeans.nrm KMeans.E (fun d : Fin 1024 => x0 (ix2 n d)) := by
  have e : ∀ k : Fin 1024, idx_main_call0_v1 (idx_main_call0_v2 (ix2 n z)) k = ix2 n k := fun k =>
    funext fun a => Fin.ext (by match a with | ⟨0, _⟩ => rfl | ⟨1, _⟩ => rfl)
  rw [val_main_v2_apply, val_main_v0_apply, val_main_call0_v2_apply, val_main_call0_v1_apply, val_main_call0_cst_apply,
    val_main_v1_apply, val_main_cst_apply]
  simp only [val_main_call0_v0_apply, e, Ideal.addf_def, Ideal.hostUnary_sqrt_def, Ideal.mulf_def, Ideal.ofBits_def,
    Ideal.ofBits_zero_f32, zero_add]
  rfl

/-- Sample row `n` divided by its guarded length, entry `d`. -/
theorem unit_sample (n : Fin 16384) (d : Fin 1024) :
    val_main_v4 (F := Ideal) x0 (ix2 n d) = KMeans.unit KMeans.E (fun d' : Fin 1024 => x0 (ix2 n d')) d := by
  have e : idx_main_v3 (ix2 n d) = ix2 n (0 : Fin 1) :=
    funext fun a => Fin.ext (by match a with | ⟨0, _⟩ => rfl | ⟨1, _⟩ => rfl)
  rw [val_main_v4_apply, val_main_v3_apply, e, norm_sample, Ideal.hostDivf_def]
  rfl

/-- The guarded length of centroid row `k`. -/
theorem norm_centroid (k : Fin 8192) (z : Fin 1) :
    val_main_v7 (F := Ideal) x1 (ix2 k z) = KMeans.nrm KMeans.E (fun d : Fin 1024 => x1 (ix2 k d)) := by
  have e : ∀ j : Fin 1024, idx_main_call1_v1 (idx_main_call1_v2 (ix2 k z)) j = ix2 k j := fun j =>
    funext fun a => Fin.ext (by match a with | ⟨0, _⟩ => rfl | ⟨1, _⟩ => rfl)
  rw [val_main_v7_apply, val_main_v5_apply, val_main_call1_v2_apply, val_main_call1_v1_apply, val_main_call1_cst_apply,
    val_main_v6_apply, val_main_cst_0_apply]
  simp only [val_main_call1_v0_apply, e, Ideal.addf_def, Ideal.hostUnary_sqrt_def, Ideal.mulf_def, Ideal.ofBits_def,
    Ideal.ofBits_zero_f32, zero_add]
  rfl

/-- Centroid row `k` divided by its guarded length, entry `d`. -/
theorem unit_centroid (k : Fin 8192) (d : Fin 1024) :
    val_main_v9 (F := Ideal) x1 (ix2 k d) = KMeans.unit KMeans.E (fun d' : Fin 1024 => x1 (ix2 k d')) d := by
  have e : idx_main_v8 (ix2 k d) = ix2 k (0 : Fin 1) :=
    funext fun a => Fin.ext (by match a with | ⟨0, _⟩ => rfl | ⟨1, _⟩ => rfl)
  rw [val_main_v9_apply, val_main_v8_apply, e, norm_centroid, Ideal.hostDivf_def]
  rfl

/-- The transposed scaled centroids at (`d`, `k`) are the scaled centroids at (`k`, `d`). -/
theorem unit_centroid_t (d : Fin 1024) (k : Fin 8192) :
    val_main_v10 (F := Ideal) x1 (ix2 d k) = KMeans.unit KMeans.E (fun d' : Fin 1024 => x1 (ix2 k d')) d := by
  have e : idx_main_v10 (ix2 d k) = ix2 k d :=
    funext fun a => Fin.ext (by match a with | ⟨0, _⟩ => rfl | ⟨1, _⟩ => rfl)
  rw [val_main_v10_apply, e, unit_centroid]

/-- The similarity of sample `n` to centroid `k`: the inner product of the two scaled rows. -/
theorem sim_apply (n : Fin 16384) (k : Fin 8192) :
    val_main_v11 (F := Ideal) x0 x1 (ix2 n k)
      = KMeans.simR KMeans.E (fun d : Fin 1024 => x0 (ix2 n d))
          (fun (k' : Fin 8192) => KMeans.unit KMeans.E (fun d' : Fin 1024 => x1 (ix2 k' d'))) k := by
  have el : ∀ d : Fin 1024, lidx_main_v11 (ix2 n k) d = ix2 n d := fun d =>
    funext fun a => Fin.ext (by match a with | ⟨0, _⟩ => rfl | ⟨1, _⟩ => rfl)
  have er : ∀ d : Fin 1024, ridx_main_v11 (ix2 n k) d = ix2 d k := fun d =>
    funext fun a => Fin.ext (by match a with | ⟨0, _⟩ => rfl | ⟨1, _⟩ => rfl)
  rw [val_main_v11_apply]
  simp only [el, er, unit_sample, unit_centroid_t]
  rfl

/-- The logit of sample `n` and centroid `k`: minus (one minus the similarity), over one. -/
theorem logit_apply (n : Fin 16384) (k : Fin 8192) :
    val_main_v16 (F := Ideal) x0 x1 (ix2 n k)
      = KMeans.logitR KMeans.O (KMeans.simR KMeans.E (fun d : Fin 1024 => x0 (ix2 n d))
          (fun (k' : Fin 8192) => KMeans.unit KMeans.E (fun d' : Fin 1024 => x1 (ix2 k' d'))) k) := by
  rw [val_main_v16_apply, val_main_v14_apply, val_main_v13_apply, val_main_v12_apply, val_main_cst_1_apply,
    val_main_v15_apply, val_main_cst_2_apply, sim_apply]
  simp only [Ideal.hostDivf_def, Ideal.hostNegf_def, Ideal.negf_def, Ideal.subf_def, Ideal.ofBits_def]
  rfl

/-- The logit of sample `n` and centroid `k` in the specification's words. -/
abbrev lg (n : Fin 16384) (k : Fin 8192) : EReal :=
  KMeans.logitR KMeans.O (KMeans.simR KMeans.E (fun d : Fin 1024 => x0 (ix2 n d))
    (fun (k' : Fin 8192) => KMeans.unit KMeans.E (fun d' : Fin 1024 => x1 (ix2 k' d'))) k)

/-- The row maximum of the logits of sample `n`, started from minus infinity: the fold of `max` over the centroids
    (the maximum is commutative and associative, so the order the rows are walked in does not matter). -/
theorem rowmax_apply (n : Fin 16384) :
    val_main_v17 (F := Ideal) x0 x1 (ix1 n)
      = Finset.univ.fold max KMeans.B (fun k : Fin 8192 => lg x0 x1 n k) := by
  have hR : S16384x8192.Reduces [1] S16384 := by decide
  have hx : ∀ k : Fin 8192, val_main_v16 (F := Ideal) x0 x1 (ix2 n k) = lg x0 x1 n k := logit_apply x0 x1 n
  unfold val_main_v17
  generalize val_main_v16 (F := Ideal) x0 x1 = y at hx ⊢
  have key := Host.reduce_eq_fold_single (α := EReal) (s := S16384x8192) (t := S16384) (a := (1 : Fin 2)) (u := S_)
    (FloatOps.maximumf (F := Ideal) (φ := .f32)) y (val_main_cst_3 (F := Ideal)) reducesTo_S16384x8192_S16384_d1 hR h_S_ (ix1 n)
  refine key.trans ?_
  have hf : (y ∘ hR.lift (ix1 n)) = fun k : Fin 8192 => lg x0 x1 n k := funext fun k => by
    refine Eq.trans (congrArg y ?_) (hx k)
    exact funext fun a => Fin.ext (by match a with | ⟨0, _⟩ => rfl | ⟨1, _⟩ => rfl)
  rw [hf]
  rfl

/-- The shift of sample `n`: the row maximum compared once more with minus infinity. -/
theorem shift_apply (n : Fin 16384) :
    val_main_v19 (F := Ideal) x0 x1 (ix1 n) = KMeans.shiftR KMeans.B (fun k : Fin 8192 => lg x0 x1 n k) := by
  rw [val_main_v19_apply, val_main_v18_apply, val_main_cst_4_apply, rowmax_apply, Ideal.maximumf_def, Ideal.ofBits_def]
  rfl

/-- The shift broadcast along the centroids. -/
theorem shift_bcast (n : Fin 16384) (k : Fin 8192) :
    val_main_v21 (F := Ideal) x0 x1 (ix2 n k) = KMeans.shiftR KMeans.B (fun k' : Fin 8192 => lg x0 x1 n k') := by
  have e : idx_main_v20 (idx_main_v21 (ix2 n k)) = ix1 n :=
    funext fun a => Fin.ext (by match a with | ⟨0, _⟩ => rfl)
  rw [val_main_v21_apply, val_main_v20_apply, e, shift_apply]

/-- The shifted exponential of sample `n` and centroid `k`. -/
theorem expo_apply (n : Fin 16384) (k : Fin 8192) :
    val_main_v23 (F := Ideal) x0 x1 (ix2 n k)
      = Ideal.exp (lg x0 x1 n k - KMeans.shiftR KMeans.B (fun k' : Fin 8192 => lg x0 x1 n k')) := by
  rw [val_main_v23_apply, val_main_v22_apply, logit_apply, shift_bcast, Ideal.hostUnary_exp_def, Ideal.subf_def]

/-- The normaliser of sample `n`: the sum of the shifted exponentials over all centroids (the sum starts from 0). -/
theorem total_apply (n : Fin 16384) :
    val_main_v24 (F := Ideal) x0 x1 (ix1 n)
      = ∑ k : Fin 8192, Ideal.exp (lg x0 x1 n k - KMeans.shiftR KMeans.B (fun k' : Fin 8192 => lg x0 x1 n k')) := by
  have e : ∀ k : Fin 8192, idx_main_v24 (ix1 n) k = ix2 n k := fun k =>
    funext fun a => Fin.ext (by match a with | ⟨0, _⟩ => rfl | ⟨1, _⟩ => rfl)
  rw [val_main_v24_apply, val_main_cst_5_apply]
  simp only [e, expo_apply, Ideal.ofBits_def, Ideal.ofBits_zero_f32, zero_add]

/-- The normaliser broadcast along the centroids. -/
theorem total_bcast (n : Fin 16384) (k : Fin 8192) :
    val_main_v26 (F := Ideal) x0 x1 (ix2 n k)
      = ∑ k'' : Fin 8192, Ideal.exp (lg x0 x1 n k'' - KMeans.shiftR KMeans.B (fun k' : Fin 8192 => lg x0 x1 n k')) := by
  have e : idx_main_v25 (idx_main_v26 (ix2 n k)) = ix1 n :=
    funext fun a => Fin.ext (by match a with | ⟨0, _⟩ => rfl)
  rw [val_main_v26_apply, val_main_v25_apply, e, total_apply]

/-- The softmax probability of centroid `k` for sample `n`. -/
theorem prob_apply (n : Fin 16384) (k : Fin 8192) :
    val_main_v27 (F := Ideal) x0 x1 (ix2 n k)
      = KMeans.probR KMeans.E KMeans.O KMeans.B (fun d : Fin 1024 => x0 (ix2 n d))
          (fun (k' : Fin 8192) => KMeans.unit KMeans.E (fun d' : Fin 1024 => x1 (ix2 k' d'))) k := by
  rw [val_main_v27_apply, expo_apply, total_bcast, Ideal.hostDivf_def]
  rfl

/-- The transposed probabilities at (`k`, `n`) are the probabilities at (`n`, `k`). -/
theorem prob_t (k : Fin 8192) (n : Fin 16384) :
    val_main_v28 (F := Ideal) x0 x1 (ix2 k n)
      = KMeans.probR KMeans.E KMeans.O KMeans.B (fun d : Fin 1024 => x0 (ix2 n d))
          (fun (k' : Fin 8192) => KMeans.unit KMeans.E (fun d' : Fin 1024 => x1 (ix2 k' d'))) k := by
  have e : idx_main_v28 (ix2 k n) = ix2 n k :=
    funext fun a => Fin.ext (by match a with | ⟨0, _⟩ => rfl | ⟨1, _⟩ => rfl)
  rw [val_main_v28_apply, e, prob_apply]

/-- The scatter at class `q` and sample `n`: the operand there is 0, and the updates added are the probabilities of
    the centroids whose label is `q` (the index operand at (`k`, 0) is the label of centroid `k`). -/
theorem scatter_read (q : Fin 1024) (n : Fin 16384) :
    val_main_v31 (F := Ideal) x0 x1 x2 (ix2 q n)
      = ∑ k ∈ Finset.univ.filter (fun k : Fin 8192 => BitVec.ofNat 32 q.val = x2 (ix1 k)),
          KMeans.probR KMeans.E KMeans.O KMeans.B (fun d : Fin 1024 => x0 (ix2 n d))
            (fun (k' : Fin 8192) => KMeans.unit KMeans.E (fun d' : Fin 1024 => x1 (ix2 k' d'))) k := by
  have h28 : ∀ k : Fin 8192, val_main_v28 (F := Ideal) x0 x1 (ix2 k n)
      = KMeans.probR KMeans.E KMeans.O KMeans.B (fun d : Fin 1024 => x0 (ix2 n d))
          (fun (k' : Fin 8192) => KMeans.unit KMeans.E (fun d' : Fin 1024 => x1 (ix2 k' d'))) k := fun k => prob_t x0 x1 k n
  have h30 : ∀ k : Fin 8192, val_main_v30 (F := Ideal) x2 (ix2 k (0 : Fin 1)) = x2 (ix1 k) := fun k => by
    rw [val_main_v30_apply]
    exact congrArg x2 (funext fun a => Fin.ext (by match a with | ⟨0, _⟩ => rfl))
  have h29 : val_main_v29 (F := Ideal) (ix2 q n) = 0 := by
    rw [val_main_v29_apply, val_main_cst_6_apply, Ideal.ofBits_def, Ideal.ofBits_zero_f32]
  unfold val_main_v31
  generalize val_main_v28 (F := Ideal) x0 x1 = u at h28 ⊢
  generalize val_main_v30 (F := Ideal) x2 = idx at h30 ⊢
  generalize val_main_v29 (F := Ideal) = z at h29 ⊢
  refine (Cert.ReferenceIdeal.Scatter.scatter_apply z idx u q n).trans ?_
  rw [h29, zero_add]
  simp only [h30, h28]

/-- The result at sample `n` and class `q` in terms of the three argument arrays. -/
theorem ref_value_args (n : Fin 16384) (q : Fin 1024) :
    val_main_v32 (F := Ideal) x0 x1 x2 (ix2 n q)
      = KMeans.scoreR KMeans.E KMeans.O KMeans.B (fun d : Fin 1024 => x0 (ix2 n d))
          (fun (k : Fin 8192) => KMeans.unit KMeans.E (fun d' : Fin 1024 => x1 (ix2 k d')))
          (fun (k : Fin 8192) (c' : Fin 1024) => BitVec.ofNat 32 c'.val = x2 (ix1 k)) q := by
  have e : idx_main_v32 (ix2 n q) = ix2 q n :=
    funext fun a => Fin.ext (by match a with | ⟨0, _⟩ => rfl | ⟨1, _⟩ => rfl)
  rw [val_main_v32_apply, e, scatter_read]
  rfl

theorem ref_value (m : (ℓ : Loc nD τ sig) → Buf (Elt Ideal) ℓ) (c : Dev nD) (n : Fin 16384) (q : Fin 1024) :
    (Cert.ReferenceIdeal.Value.res_main_v32 (F := Ideal) m c : S16384x1024.Idx → EReal) (ix2 n q)
      = KMeans.scoreR KMeans.E KMeans.O KMeans.B
          (fun d : Fin 1024 => (m ((c.tc : Thread nD τ).loc main_arg0) : S16384x1024.Idx → EReal) (ix2 n d))
          (fun (k : Fin 8192) => KMeans.unit KMeans.E
            (fun d' : Fin 1024 => (m ((c.tc : Thread nD τ).loc main_arg1) : S8192x1024.Idx → EReal) (ix2 k d')))
          (fun (k : Fin 8192) (c' : Fin 1024) =>
            BitVec.ofNat 32 c'.val = (m ((c.tc : Thread nD τ).loc main_arg2) : S8192.Idx → BitVec 32) (ix1 k)) q := by
  rw [Read.val_main_v32_eq]
  exact ref_value_args _ _ _ n q

end Cert.ReferenceIdeal.RefValue

end
-- ==== Proof.AlgebraReal.lean ====
import Mathlib.Analysis.SpecialFunctions.Exp
import Mathlib.Algebra.BigOperators.Field
import Mathlib.Data.Fintype.BigOperators

noncomputable section

namespace KMeans

/-- The shifted logit `-(1 - s) / 1 - μ` equals `s + (-1 - μ)`, so its exponential is `exp s · exp (-1 - μ)`. -/
private theorem exp_shift (s μ : ℝ) :
    Real.exp (-(1 - s) / 1 - μ) = Real.exp s * Real.exp (-1 - μ) := by
  rw [← Real.exp_add]
  congr 1
  ring

/-- When exactly one class satisfies `p`, the indicators of `p` add up to `1` over the classes:
    only the unique witness contributes. -/
private theorem sum_indicator_eq_one {C : Type} [Fintype C] (p : C → Prop) [DecidablePred p]
    (h : ∃! c, p c) : (∑ c', (if p c' then (1 : ℝ) else 0)) = 1 := by
  obtain ⟨c₀, h₀, hu⟩ := h
  rw [Finset.sum_eq_single c₀]
  · rw [if_pos h₀]
  · intro b _ hb
    have hnb : ¬ p b := fun hp => hb (hu b hp)
    rw [if_neg hnb]
  · intro hc
    exact absurd (Finset.mem_univ c₀) hc

/-- Over the reals: the class masses `∑ₖ exp σₖ · [k hits c]` divided by their total over the classes are the softmax
    probabilities of the logits `-(1 - σₖ) / 1`, shifted by any `μ`, added over the centroids that hit `c` — when every
    centroid hits exactly one class. -/
theorem real_identity {K C : Type} [Fintype K] [Fintype C] [Nonempty K] (σ : K → ℝ) (μ : ℝ)
    (hit : K → C → Prop) [∀ k c, Decidable (hit k c)] (hhit : ∀ k, ∃! c, hit k c) (c : C) :
    (∑ k, Real.exp (σ k) * (if hit k c then (1 : ℝ) else 0))
        / (∑ c', ∑ k, Real.exp (σ k) * (if hit k c' then (1 : ℝ) else 0))
      = ∑ k ∈ Finset.univ.filter (fun k => hit k c),
          Real.exp (-(1 - σ k) / 1 - μ) / (∑ k', Real.exp (-(1 - σ k') / 1 - μ)) := by
  -- The common factor `a = exp (-1 - μ)` is nonzero.
  have ha : Real.exp (-1 - μ) ≠ 0 := (Real.exp_pos _).ne'
  -- Left numerator: multiplying by the indicator restricts the sum to the centroids that hit `c`.
  have hnum : (∑ k, Real.exp (σ k) * (if hit k c then (1 : ℝ) else 0))
      = ∑ k ∈ Finset.univ.filter (fun k => hit k c), Real.exp (σ k) := by
    rw [Finset.sum_filter]
    refine Finset.sum_congr rfl fun k _ => ?_
    by_cases hk : hit k c
    · rw [if_pos hk, if_pos hk, mul_one]
    · rw [if_neg hk, if_neg hk, mul_zero]
  -- Left denominator: exchanging the sums, each centroid contributes `exp σₖ · ∑_c' [k hits c'] = exp σₖ · 1`.
  have hden : (∑ c', ∑ k, Real.exp (σ k) * (if hit k c' then (1 : ℝ) else 0))
      = ∑ k, Real.exp (σ k) := by
    rw [Finset.sum_comm]
    refine Finset.sum_congr rfl fun k _ => ?_
    rw [← Finset.mul_sum, sum_indicator_eq_one (fun c' => hit k c') (hhit k), mul_one]
  -- Right denominator: `∑ₖ exp σₖ · a = (∑ₖ exp σₖ) · a`.
  have hden' : (∑ k', Real.exp (-(1 - σ k') / 1 - μ))
      = (∑ k, Real.exp (σ k)) * Real.exp (-1 - μ) := by
    rw [Finset.sum_mul]
    exact Finset.sum_congr rfl fun k _ => exp_shift (σ k) μ
  -- Both sides are now `∑_{k hits c} exp σₖ / S` with `S = ∑ₖ exp σₖ`, once the factor `a` is cancelled termwise.
  rw [hnum, hden, hden', Finset.sum_div]
  refine Finset.sum_congr rfl fun k _ => ?_
  rw [exp_shift, mul_div_mul_right _ _ ha]

end KMeans

end
-- ==== Proof.Algebra.lean ====
import proofs.«165227_g20968030339366_cont_sun_c4_238_16_alg».proof.Proof.Spec
import proofs.«165227_g20968030339366_cont_sun_c4_238_16_alg».proof.Proof.AlgebraReal

/-
  The two arrangements of the cosine soft k-means scores agree on real rows.

  On rows of real numbers every quantity of the specification is (the coercion of) a real number: the guarded length
  `‖x‖₂ + ε` is a positive real, so dividing by it and multiplying with its reciprocal are the same real division; the
  similarities of the two programs are therefore the same reals `σ k`; the class masses are the real sums
  `∑ₖ exp (σ k)·[k hits c]` with a positive total; the logits are the reals `-(1 - σ k) / 1`, their maximum (started from
  `-∞`, over a nonempty set of centroids) is a real `μ`, and the softmax probabilities are real quotients with a positive
  denominator. Both scores are then the coercions of the two sides of the real identity `real_identity`.
-/

noncomputable section

namespace KMeans

open Idealize.ShloMosaic

variable {D K C : Type} [Fintype D] [Fintype K] [Fintype C]

/-- The guard is the positive real `(2^23 + 834764) · 2^(87 - 127 - 23) = 9223372 / 2^63`. -/
theorem eps_pos : ∃ ε : ℝ, 0 < ε ∧ E = (ε : EReal) := by
  refine ⟨9223372 * (2 ^ 63)⁻¹, by positivity, ?_⟩
  simp [E, Ideal.ofBits, Ideal.ieee, -EReal.coe_mul]

theorem O_eq : O = 1 := by
  simp [O, Ideal.ofBits, Ideal.ieee, -EReal.coe_mul]; norm_num

theorem B_eq : B = ⊥ := by
  simp [B, Ideal.ofBits, Ideal.ieee]

/-- The coercion of a finite real sum is the sum of the coercions. -/
theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The guarded length of a real row, as a real number. -/
def nrmR (ε : ℝ) (x : D → ℝ) : ℝ := Real.sqrt (∑ d, x d * x d) + ε

theorem nrmR_pos {ε : ℝ} (hε : 0 < ε) (x : D → ℝ) : 0 < nrmR ε x := by
  have h := Real.sqrt_nonneg (∑ d, x d * x d)
  unfold nrmR
  linarith

/-- The similarity of a real row to a real (already scaled) centroid: the row divided by its guarded length, times the
    centroid, summed. -/
def simReal (ε : ℝ) (x : D → ℝ) (z : K → D → ℝ) (k : K) : ℝ := ∑ d, x d / nrmR ε x * z k d

/-- A sum of squares is nonnegative, so the square root takes its real branch: the guarded length of a real row is the
    real `√(∑ x²) + ε`. -/
theorem nrm_coe (ε : ℝ) (v : D → EReal) (x : D → ℝ) (hv : ∀ d, v d = (x d : EReal)) :
    nrm (ε : EReal) v = (nrmR ε x : EReal) := by
  have hs : (∑ d, v d * v d) = ((∑ d, x d * x d : ℝ) : EReal) := by
    rw [coe_sum]
    exact Finset.sum_congr rfl (fun d _ => by rw [hv d, EReal.coe_mul])
  have hnn : ¬ (∑ d, x d * x d) < 0 := not_lt.2 (Finset.sum_nonneg (fun d _ => mul_self_nonneg (x d)))
  rw [nrm, hs, Ideal.sqrt_coe, if_neg hnn, nrmR, EReal.coe_add]

/-- Dividing a real entry by the positive guarded length is the real quotient. -/
theorem unit_coe {ε : ℝ} (hε : 0 < ε) (v : D → EReal) (x : D → ℝ) (hv : ∀ d, v d = (x d : EReal)) (d : D) :
    unit (ε : EReal) v d = ((x d / nrmR ε x : ℝ) : EReal) := by
  rw [unit, nrm_coe ε v x hv, Ideal.div_coe (nrmR_pos hε x).ne', hv d, ← EReal.coe_mul, mul_one_div]

/-- Multiplying with the reciprocal `1 / (‖x‖ + ε)` is the same real quotient: the first program's similarity. -/
theorem simK_coe {ε : ℝ} (hε : 0 < ε) (v : D → EReal) (x : D → ℝ) (hv : ∀ d, v d = (x d : EReal))
    (cn : K → D → EReal) (z : K → D → ℝ) (hz : ∀ k d, cn k d = (z k d : EReal)) (k : K) :
    simK (ε : EReal) 1 v cn k = (simReal ε x z k : EReal) := by
  rw [simK, simReal, coe_sum]
  refine Finset.sum_congr rfl (fun d _ => ?_)
  rw [nrm_coe ε v x hv, Ideal.div_coe (nrmR_pos hε x).ne', one_mul, hv d, hz k d, ← EReal.coe_mul, ← EReal.coe_mul,
    mul_one_div]

/-- The second program's similarity is the same real. -/
theorem simR_coe {ε : ℝ} (hε : 0 < ε) (v : D → EReal) (x : D → ℝ) (hv : ∀ d, v d = (x d : EReal))
    (cn : K → D → EReal) (z : K → D → ℝ) (hz : ∀ k d, cn k d = (z k d : EReal)) (k : K) :
    simR (ε : EReal) v cn k = (simReal ε x z k : EReal) := by
  rw [simR, simReal, coe_sum]
  refine Finset.sum_congr rfl (fun d _ => ?_)
  rw [unit_coe hε v x hv d, hz k d, ← EReal.coe_mul]

/-- The logit of a real similarity is the real `-(1 - s) / 1`. -/
theorem logitR_coe (s : ℝ) : logitR 1 (s : EReal) = ((-(1 - s) / 1 : ℝ) : EReal) := by
  rw [logitR, ← EReal.coe_one, ← EReal.coe_sub, ← EReal.coe_neg, Ideal.div_coe one_ne_zero, ← EReal.coe_mul,
    mul_one_div]

/-- The maximum of finitely many reals, started from `-∞`, over a nonempty index set, is one of them: a real. -/
theorem shiftR_coe [Nonempty K] (l : K → EReal) (hl : ∀ k, ∃ r : ℝ, l k = (r : EReal)) :
    ∃ μ : ℝ, shiftR ⊥ l = (μ : EReal) := by
  have hfold : Finset.univ.fold max ⊥ l = Finset.univ.sup l := rfl
  obtain ⟨k₀, _, hk⟩ := Finset.exists_mem_eq_sup Finset.univ Finset.univ_nonempty l
  obtain ⟨r, hr⟩ := hl k₀
  exact ⟨r, by rw [shiftR, hfold, hk, hr, max_eq_right bot_le]⟩

/-- The mass of a class on real rows: the real sum of `exp (σ k)` over the centroids that hit the class. -/
theorem massK_coe {ε : ℝ} (hε : 0 < ε) (v : D → EReal) (x : D → ℝ) (hv : ∀ d, v d = (x d : EReal))
    (cn : K → D → EReal) (z : K → D → ℝ) (hz : ∀ k d, cn k d = (z k d : EReal))
    (hit : K → C → Prop) [∀ k c, Decidable (hit k c)] (c : C) :
    massK (ε : EReal) 1 v cn hit c
      = ((∑ k, Real.exp (simReal ε x z k) * (if hit k c then (1 : ℝ) else 0) : ℝ) : EReal) := by
  rw [massK, coe_sum]
  refine Finset.sum_congr rfl (fun k _ => ?_)
  rw [simK_coe hε v x hv cn z hz k, Ideal.exp_coe]
  split_ifs
  · rw [mul_one, mul_one]
  · rw [mul_zero, mul_zero, EReal.coe_zero]

/-- The total mass is positive: some centroid hits some class, and that one term is an exponential. -/
theorem total_pos [Nonempty K] (σ : K → ℝ) (hit : K → C → Prop) [∀ k c, Decidable (hit k c)]
    (hhit : ∀ k, ∃! c, hit k c) :
    0 < ∑ c', ∑ k, Real.exp (σ k) * (if hit k c' then (1 : ℝ) else 0) := by
  obtain ⟨k₀⟩ := ‹Nonempty K›
  obtain ⟨c₀, hc₀, _⟩ := hhit k₀
  have hnn : ∀ (c' : C) (k : K), 0 ≤ Real.exp (σ k) * (if hit k c' then (1 : ℝ) else 0) := by
    intro c' k
    split_ifs
    · rw [mul_one]; exact (Real.exp_pos _).le
    · rw [mul_zero]
  have h1 : (∑ k, Real.exp (σ k) * (if hit k c₀ then (1 : ℝ) else 0))
      ≤ ∑ c', ∑ k, Real.exp (σ k) * (if hit k c' then (1 : ℝ) else 0) :=
    Finset.single_le_sum (f := fun c' => ∑ k, Real.exp (σ k) * (if hit k c' then (1 : ℝ) else 0))
      (fun c' _ => Finset.sum_nonneg (fun k _ => hnn c' k)) (Finset.mem_univ c₀)
  have h2 : Real.exp (σ k₀) * (if hit k₀ c₀ then (1 : ℝ) else 0)
      ≤ ∑ k, Real.exp (σ k) * (if hit k c₀ then (1 : ℝ) else 0) :=
    Finset.single_le_sum (f := fun k => Real.exp (σ k) * (if hit k c₀ then (1 : ℝ) else 0))
      (fun k _ => hnn c₀ k) (Finset.mem_univ k₀)
  rw [if_pos hc₀, mul_one] at h2
  exact lt_of_lt_of_le (Real.exp_pos _) (h2.trans h1)

/-- The softmax probability on real rows: a real quotient, its denominator a positive sum of exponentials. -/
theorem probR_coe [Nonempty K] {ε : ℝ} (hε : 0 < ε) (v : D → EReal) (x : D → ℝ) (hv : ∀ d, v d = (x d : EReal))
    (cn : K → D → EReal) (z : K → D → ℝ) (hz : ∀ k d, cn k d = (z k d : EReal)) (μ : ℝ)
    (hμ : shiftR ⊥ (fun k' => logitR 1 (simR (ε : EReal) v cn k')) = (μ : EReal)) (k : K) :
    probR (ε : EReal) 1 ⊥ v cn k
      = ((Real.exp (-(1 - simReal ε x z k) / 1 - μ) / (∑ k', Real.exp (-(1 - simReal ε x z k') / 1 - μ)) : ℝ) : EReal) := by
  have he : ∀ k, Ideal.exp (logitR 1 (simR (ε : EReal) v cn k) - (μ : EReal))
      = ((Real.exp (-(1 - simReal ε x z k) / 1 - μ) : ℝ) : EReal) := by
    intro k
    rw [simR_coe hε v x hv cn z hz k, logitR_coe, ← EReal.coe_sub, Ideal.exp_coe]
  have hsum : (∑ k'', Ideal.exp (logitR 1 (simR (ε : EReal) v cn k'') - (μ : EReal)))
      = ((∑ k', Real.exp (-(1 - simReal ε x z k') / 1 - μ) : ℝ) : EReal) := by
    rw [coe_sum]
    exact Finset.sum_congr rfl (fun k'' _ => he k'')
  have hpos : 0 < ∑ k', Real.exp (-(1 - simReal ε x z k') / 1 - μ) :=
    Finset.sum_pos (fun k' _ => Real.exp_pos _) Finset.univ_nonempty
  rw [probR, hμ, he k, hsum, Ideal.div_coe hpos.ne', ← EReal.coe_mul, mul_one_div]

theorem scoreK_eq_scoreR [Nonempty K] (v : D → EReal) (hv : ∀ d, ∃ r : ℝ, v d = (r : EReal))
    (cc : K → D → EReal) (hc : ∀ k d, ∃ r : ℝ, cc k d = (r : EReal))
    (hit : K → C → Prop) [∀ k c, Decidable (hit k c)] (hhit : ∀ k, ∃! c, hit k c) (c : C) :
    scoreK E O v (fun k => unit E (cc k)) hit c = scoreR E O B v (fun k => unit E (cc k)) hit c := by
  obtain ⟨ε, hε, hE⟩ := eps_pos
  choose x hx using hv
  choose y hy using hc
  rw [hE, O_eq, B_eq]
  -- the scaled centroids are real rows `y k d / (‖y k‖ + ε)`
  have hz : ∀ k d, (fun k => unit (ε : EReal) (cc k)) k d = ((y k d / nrmR ε (y k) : ℝ) : EReal) :=
    fun k d => unit_coe hε (cc k) (y k) (hy k) d
  -- the shift is a real
  obtain ⟨μ, hμ⟩ := shiftR_coe (fun k' => logitR 1 (simR (ε : EReal) v (fun k => unit (ε : EReal) (cc k)) k'))
    (fun k' => ⟨_, by rw [simR_coe hε v x hx _ _ hz k', logitR_coe]⟩)
  have hT := total_pos (simReal ε x (fun k d => y k d / nrmR ε (y k))) hit hhit
  have htot : (∑ c', massK (ε : EReal) 1 v (fun k => unit (ε : EReal) (cc k)) hit c')
      = ((∑ c', ∑ k, Real.exp (simReal ε x (fun k d => y k d / nrmR ε (y k)) k)
          * (if hit k c' then (1 : ℝ) else 0) : ℝ) : EReal) := by
    rw [coe_sum]
    exact Finset.sum_congr rfl (fun c' _ => massK_coe hε v x hx _ _ hz hit c')
  have hR : scoreR (ε : EReal) 1 ⊥ v (fun k => unit (ε : EReal) (cc k)) hit c
      = ((∑ k ∈ Finset.univ.filter (fun k => hit k c),
          Real.exp (-(1 - simReal ε x (fun k d => y k d / nrmR ε (y k)) k) / 1 - μ)
            / (∑ k', Real.exp (-(1 - simReal ε x (fun k d => y k d / nrmR ε (y k)) k') / 1 - μ)) : ℝ) : EReal) := by
    rw [scoreR, coe_sum]
    exact Finset.sum_congr rfl (fun k _ => probR_coe hε v x hx _ _ hz μ hμ k)
  rw [hR, scoreK, massK_coe hε v x hx _ _ hz hit c, htot, Ideal.div_coe hT.ne', ← EReal.coe_mul, mul_one_div,
    real_identity (simReal ε x (fun k d => y k d / nrmR ε (y k))) μ hit hhit c]

end KMeans

end
-- ==== Proof.PreFacts.lean ====
/-
  The precondition, decoded. The printed predicate is the conjunction of three "for all" statements, each a
  reduction by `and` of a one-bit array over all of its axes into the one-entry rank-0 shape: |x| < +∞ at every
  entry of x, |cc| < +∞ at every entry of cc, and 0 ≤ lab ∧ lab < 1024 (both signed) at every label. Saying the
  predicate is 1 at its one index says each conjunct is 1, hence each one-bit array is 1 everywhere. At the ideal
  floats, an extended real whose absolute value max v (−v) lies strictly below ⊤ is neither ⊥ nor ⊤, so it is a
  real; a 32-bit word whose signed value lies in [0, 1024) has unsigned value below 1024.
-/
import proofs.«165227_g20968030339366_cont_sun_c4_238_16_alg».proof.Proof.Gen.Pre_finite_inputs
import Idealize.ShloMosaic.Lib.ValueIdx
import Idealize.ShloMosaic.Lib.ReduceAll
import Idealize.ShloMosaic.Lib.StableHlo.Predicate

noncomputable section

namespace Cert.Pre_finite_inputs.Decode

open Cert.Pre_finite_inputs Cert.Pre_finite_inputs.Gen Idealize.ShloMosaic Idealize.ShloMosaic.ValueIdx

/-- The rank-0 shape has one index: two indices are functions out of the empty set of axes. -/
instance : Subsingleton S_.Idx := ⟨fun a b => funext fun d => d.elim0⟩

/-- The pattern 0x7F800000 (sign 0, exponent all ones, significand 0) denotes +∞. -/
theorem inf_bits : Ideal.ofBits .f32 0x7F800000#32 = (⊤ : EReal) := by
  simp [Ideal.ofBits, Ideal.ieee]

/-- An extended real with |v| = max v (−v) strictly below +∞ is a real: at ⊥ the maximum is −⊥ = ⊤, at ⊤ it is ⊤,
    and neither is below ⊤. -/
theorem real_of_abs_lt (v : EReal)
    (h : Ideal.cmp .olt (max v (-v)) (Ideal.ofBits .f32 0x7F800000#32) = 1#1) : ∃ r : ℝ, v = (r : EReal) := by
  rw [inf_bits] at h
  unfold Ideal.cmp at h
  rw [StableHlo.Predicate.ofBool_eq_one_iff] at h
  simp only [decide_eq_true_eq] at h
  induction v using EReal.rec with
  | bot => simp at h
  | coe r => exact ⟨r, rfl⟩
  | top => simp at h

/-- A 32-bit word w with 0 ≤ w and w < 1024 as SIGNED integers has unsigned value below 1024: the signed value is
    the unsigned one when that is below 2³¹ and the unsigned one minus 2³² otherwise, and the latter is negative. -/
theorem toNat_lt (w : BitVec 32) (h0 : IntOp.cmpi .sge w (0#32) = 1#1)
    (h1 : IntOp.cmpi .slt w (1024#32) = 1#1) : w.toNat < 1024 := by
  unfold IntOp.cmpi at h0 h1
  rw [StableHlo.Predicate.ofBool_eq_one_iff] at h0 h1
  simp only [BitVec.slt, BitVec.sle, decide_eq_true_eq] at h0 h1
  have h32 := w.isLt
  unfold BitVec.toInt at h0 h1
  split at h1 <;> simp at h0 h1 <;> omega

theorem pre_facts (x : S16384x1024.Idx → EReal) (cc : S8192x1024.Idx → EReal) (lab : S8192.Idx → BitVec 32)
    (h : Cert.Pre_finite_inputs.fn (F := Ideal) x cc lab = fun _ => 1#1) :
    (∀ i, ∃ r : ℝ, x i = (r : EReal)) ∧ (∀ i, ∃ r : ℝ, cc i = (r : EReal)) ∧ (∀ k, (lab k).toNat < 1024) := by
  -- the predicate at its one index: (all |x| < ∞  and  all |cc| < ∞)  and  all (0 ≤ lab < 1024), equal to 1
  have e := congrFun h ValueIdx.ix0
  unfold Cert.Pre_finite_inputs.fn at e
  dsimp only at e
  -- a conjunction of bits is 1 exactly when both bits are
  obtain ⟨e12, hl⟩ := IntOp.andi_eq_one.1 e
  obtain ⟨hx, hc⟩ := IntOp.andi_eq_one.1 e12
  -- each "for all" that is 1 gives the bit 1 at every entry; the bit at an entry is the comparison there
  refine ⟨fun i => ?_, fun i => ?_, fun k => ?_⟩
  · exact real_of_abs_lt (x i) (Host.reduce_andi_all _ _ _ _ _ hx i)
  · exact real_of_abs_lt (cc i) (Host.reduce_andi_all _ _ _ _ _ hc i)
  · obtain ⟨h0, h1⟩ := IntOp.andi_eq_one.1 (Host.reduce_andi_all _ _ _ _ _ hl k)
    exact toNat_lt (lab k) h0 h1

end Cert.Pre_finite_inputs.Decode

end
-- ==== Proof.lean ====
/-
  The cosine soft k-means classifier: a Pallas pair of kernels against its jnp reference, equal over the extended reals.

  Both programs scale every sample row and every centroid row by `1 / (‖·‖₂ + ε)` and take the inner products `s n k` of the
  scaled rows. The reference then forms the softmax over ALL centroids of the logits `s n k - 1` (shifted by their row
  maximum) and adds the probabilities of the centroids of each class (a scatter-add keyed by the labels). The kernels take
  `exp (s n k)`, add those masses class by class with a one-hot matrix product, four chunks of centroids at a time, and
  divide each row of class masses by its sum. With finite inputs every quantity is a real number, the shift and the `- 1`
  cancel in the quotient, and — every label naming a class, which is the precondition's added conjunct — the sum of the
  class masses of a row is the sum over all centroids, so the two quotients are one number (`KMeans.scoreK_eq_scoreR`).

  The kernels' frames are the generated ones. The value of the kernel program is read off the same launch
  (`RunNamed.run_named`), region by region (`Value.kernel_value`); the reference's run is the generated one, read at an index
  (`RefValue.ref_value`). The ideal pass rewrote nothing, so `preserves` is trivial.
-/
import proofs.«165227_g20968030339366_cont_sun_c4_238_16_alg».proof.Defs
import proofs.«165227_g20968030339366_cont_sun_c4_238_16_alg».proof.Proof.Gen.Kernel
import proofs.«165227_g20968030339366_cont_sun_c4_238_16_alg».proof.Proof.Gen.Kernel.Skeleton
import proofs.«165227_g20968030339366_cont_sun_c4_238_16_alg».proof.Proof.Gen.Kernel.Launch
import proofs.«165227_g20968030339366_cont_sun_c4_238_16_alg».proof.Proof.Gen.Kernel.Points
import proofs.«165227_g20968030339366_cont_sun_c4_238_16_alg».proof.Proof.Gen.Kernel.Frame
import proofs.«165227_g20968030339366_cont_sun_c4_238_16_alg».proof.Proof.Gen.KernelIdeal
import proofs.«165227_g20968030339366_cont_sun_c4_238_16_alg».proof.Proof.Gen.KernelIdeal.Skeleton
import proofs.«165227_g20968030339366_cont_sun_c4_238_16_alg».proof.Proof.Gen.KernelIdeal.Launch
import proofs.«165227_g20968030339366_cont_sun_c4_238_16_alg».proof.Proof.Gen.KernelIdeal.Points
import proofs.«165227_g20968030339366_cont_sun_c4_238_16_alg».proof.Proof.Gen.KernelIdeal.Frame
import proofs.«165227_g20968030339366_cont_sun_c4_238_16_alg».proof.Proof.Gen.ReferenceIdeal
import proofs.«165227_g20968030339366_cont_sun_c4_238_16_alg».proof.Proof.Gen.Pre_finite_inputs
import proofs.«165227_g20968030339366_cont_sun_c4_238_16_alg».proof.Proof.KernelValue
import proofs.«165227_g20968030339366_cont_sun_c4_238_16_alg».proof.Proof.RefValue
import proofs.«165227_g20968030339366_cont_sun_c4_238_16_alg».proof.Proof.Algebra
import proofs.«165227_g20968030339366_cont_sun_c4_238_16_alg».proof.Proof.PreFacts
import Idealize.ShloMosaic.Adequacy
import Idealize.ShloMosaic.Init

noncomputable section

namespace Cert.Proof

open Idealize.ShloMosaic Idealize.ShloMosaic.TcCoe Idealize.SL.Sem Idealize.ShloMosaic.ValueIdx

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The class scores of sample `n` as a function of the three argument arrays, in the kernels' arrangement. -/
def score (x : Cert.KernelIdeal.S16384x1024.Idx → EReal) (cc : Cert.KernelIdeal.S8192x1024.Idx → EReal)
    (lab : Cert.KernelIdeal.S8192.Idx → BitVec 32) (n : Fin 16384) (q : Fin 1024) : EReal :=
  KMeans.scoreK KMeans.E KMeans.O (fun d : Fin 1024 => x (ix2 n d))
    (fun (k : Fin 8192) => KMeans.unit KMeans.E (fun d' : Fin 1024 => cc (ix2 k d')))
    (fun (k : Fin 8192) (c' : Fin 1024) => BitVec.ofNat 32 c'.val = lab (ix1 k)) q

/-- A label below 1024 names exactly one class. -/
theorem one_class (w : BitVec 32) (hw : w.toNat < 1024) : ∃! c' : Fin 1024, BitVec.ofNat 32 c'.val = w := by
  refine ⟨⟨w.toNat, hw⟩, BitVec.eq_of_toNat_eq (by rw [BitVec.toNat_ofNat]; exact Nat.mod_eq_of_lt (by omega)), fun c' hc' => Fin.ext ?_⟩
  have := congrArg BitVec.toNat hc'
  rw [BitVec.toNat_ofNat, Nat.mod_eq_of_lt (by have := c'.isLt; omega)] at this
  exact this

theorem algebraic : Cert.algebraic_KernelIdeal_ReferenceIdeal := by
  intro m ρ m' ρ' hpre hagree
  refine ⟨fun c i => score (m ((c.tc : Thread _ Cert.KernelIdeal.τ).loc Cert.KernelIdeal.main_arg0))
      (m ((c.tc : Thread _ Cert.KernelIdeal.τ).loc Cert.KernelIdeal.main_arg1))
      (m ((c.tc : Thread _ Cert.KernelIdeal.τ).loc Cert.KernelIdeal.main_arg2)) (i 0) (i 1), ?_, ?_⟩
  · refine (θ_run Cert.KernelIdeal.defs _ _).mono (fun r h c => ⟨(h c).1.trans ?_, (h c).2⟩)
      (Cert.KernelIdeal.RunNamed.run_named (F := Ideal) m ρ)
    funext i
    obtain ⟨n, q, rfl⟩ : ∃ (n : Fin 16384) (q : Fin 1024), i = ix2 n q := ⟨i 0, i 1, eq_ix2 i⟩
    exact Cert.KernelIdeal.Value.kernel_value m ρ c n q
  · refine (θ_run Cert.ReferenceIdeal.defs _ _).mono (fun r h c => ⟨(h c).1.trans ?_, (h c).2⟩)
      (Cert.ReferenceIdeal.Value.run (F := Ideal) m' ρ')
    funext i
    obtain ⟨n, q, rfl⟩ : ∃ (n : Fin 16384) (q : Fin 1024), i = ix2 n q := ⟨i 0, i 1, eq_ix2 i⟩
    obtain ⟨hx, hc, hl⟩ := Cert.Pre_finite_inputs.Decode.pre_facts _ _ _ (hpre c)
    rw [Cert.ReferenceIdeal.RefValue.ref_value, (hagree c).1, (hagree c).2.1, (hagree c).2.2]
    exact (KMeans.scoreK_eq_scoreR _ (fun d => hx _) _ (fun k d => hc _) _ (fun k => one_class _ (hl _)) q).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
